-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x256 .f32) (main_arg4 : FVec F S256 .f32) (main_arg5 : FVec F S256x128 .f32) (main_arg6 : FVec F S128 .f32) (main_arg7 : FVec F S128x128 .f32) (main_arg8 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x256 : Shape := ⟨2, ![1, 256]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩

abbrev nBuf : Space → Nat
  | .hbm => 68
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x256, .f32⟩
  | .hbm, ⟨47, _⟩ => ⟨S100000x256, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_v41_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S100000x256.size a
  hwx0_4 : ∀ i : grid0.Coords, EltTy.bits .f32 = 32 ∨ (Rect.block (s := S100000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41_1) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v41_2) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x256 : Shape := ⟨2, ![1, 256]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x256, .f32⟩
  | .hbm, ⟨49, _⟩ => ⟨S1x256, .f32⟩
  | .hbm, ⟨50, _⟩ => ⟨S100000x256, .f32⟩
  | .hbm, ⟨51, _⟩ => ⟨S100000x256, .f32⟩
  | .hbm, ⟨52, _⟩ => ⟨S_, .f32⟩
  | .hbm, ⟨53, _⟩ => ⟨S100000x256, .f32⟩
  | .hbm, ⟨54, _⟩ => ⟨S100000x256, .f32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S128x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The dense stages of the two graph-convolution layers and of the two linear heads, as functions of whole arrays read
  index by index on the extended reals. Rows are nodes. With `a` an aggregated feature array, `n` a column of
  per-node scales (a degree's inverse square root), `w` a weight matrix and `b` a bias row:

    scaleDenseRelu a n w b (p, q) = max (Σ_k (a (p, k) · n (p, 0)) · w (k, q) + b (0, q)) 0
    denseScale     h n w   (p, q) = (Σ_k h (p, k) · w (k, q)) · n (p, 0)
    scaleBiasRelu  a n b   (p, q) = max (a (p, q) · n (p, 0) + b (0, q)) 0
    linearOf       h w     (p, q) = Σ_k h (p, k) · w (k, q)

  Each is a row-wise function: row p of the result depends on row p of the row-indexed operands only. That is what lets
  a kernel compute it a block of rows at a time (`*_rows`: the function of a block of rows is the block of the function).
-/
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv

open Idealize.ShloMosaic Idealize.ShloMosaic.ValueIdx

/-- An r × c array of extended reals. -/
abbrev Arr (r c : ℕ) := FVec Ideal ⟨2, ![r, c]⟩ .f32

/-- The zero a rectifier compares with. -/
abbrev zero : Ideal .f32 := Ideal.ofBits .f32 0x00000000#32

variable {R K C : ℕ}

def scaleDenseReluAt (a : Arr R K) (n : Arr R 1) (w : Arr K C) (b : Arr 1 C) (p : Fin R) (q : Fin C) : Ideal .f32 :=
  max ((∑ k : Fin K, (a (ix2 p k) * n (ix2 p (0 : Fin 1))) * w (ix2 k q)) + b (ix2 (0 : Fin 1) q)) zero

def scaleDenseRelu (a : Arr R K) (n : Arr R 1) (w : Arr K C) (b : Arr 1 C) : Arr R C :=
  fun i => scaleDenseReluAt a n w b (i 0) (i 1)

def denseScaleAt (h : Arr R K) (n : Arr R 1) (w : Arr K C) (p : Fin R) (q : Fin C) : Ideal .f32 :=
  (∑ k : Fin K, h (ix2 p k) * w (ix2 k q)) * n (ix2 p (0 : Fin 1))

def denseScale (h : Arr R K) (n : Arr R 1) (w : Arr K C) : Arr R C :=
  fun i => denseScaleAt h n w (i 0) (i 1)

def scaleBiasReluAt (a : Arr R C) (n : Arr R 1) (b : Arr 1 C) (p : Fin R) (q : Fin C) : Ideal .f32 :=
  max (a (ix2 p q) * n (ix2 p (0 : Fin 1)) + b (ix2 (0 : Fin 1) q)) zero

def scaleBiasRelu (a : Arr R C) (n : Arr R 1) (b : Arr 1 C) : Arr R C :=
  fun i => scaleBiasReluAt a n b (i 0) (i 1)

def linearOfAt (h : Arr R K) (w : Arr K C) (p : Fin R) (q : Fin C) : Ideal .f32 :=
  ∑ k : Fin K, h (ix2 p k) * w (ix2 k q)

def linearOf (h : Arr R K) (w : Arr K C) : Arr R C :=
  fun i => linearOfAt h w (i 0) (i 1)

theorem scaleDenseRelu_apply (a : Arr R K) (n : Arr R 1) (w : Arr K C) (b : Arr 1 C) (p : Fin R) (q : Fin C) :
    scaleDenseRelu a n w b (ix2 p q) = scaleDenseReluAt a n w b p q := rfl
theorem denseScale_apply (h : Arr R K) (n : Arr R 1) (w : Arr K C) (p : Fin R) (q : Fin C) :
    denseScale h n w (ix2 p q) = denseScaleAt h n w p q := rfl
theorem scaleBiasRelu_apply (a : Arr R C) (n : Arr R 1) (b : Arr 1 C) (p : Fin R) (q : Fin C) :
    scaleBiasRelu a n b (ix2 p q) = scaleBiasReluAt a n b p q := rfl
theorem linearOf_apply (h : Arr R K) (w : Arr K C) (p : Fin R) (q : Fin C) :
    linearOf h w (ix2 p q) = linearOfAt h w p q := rfl

/-! ## Two layout facts: a column and a row, broadcast over a block, read at an index -/

section Layout

variable {α : Type}

/-- An [a, 1] column cast to its own shape and broadcast across the columns of [a, b]: at (p, q), the column at p. -/
theorem column_broadcast_apply {a b : ℕ} (v : (⟨2, ![a, 1]⟩ : Shape).Idx → α)
    (h₁ : (⟨2, ![a, 1]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix2 p (0 : Fin 1)) := by
  refine (broadcastTo_apply _ h₂ (ix2 p q) (ix2 p (0 : Fin 1)) fun ax => ?_).trans (congrFun (shapeCast_self v h₁) _)
  match ax with
  | ⟨0, _⟩ =>
    show p.val = if a = 1 then 0 else p.val
    split
    · have := p.isLt; omega
    · rfl
  | ⟨1, _⟩ => rfl

/-- A [1, b] row cast to its own shape and broadcast down the rows of [a, b]: at (p, q), the row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

end Layout

end Cert.GraphConv

end
-- ==== Proof.Region0.lean ====
/-
  The first layer's dense stage, a block of 2000 rows at each of 50 grid points: the array it leaves is
  `scaleDenseRelu` of the four arrays it reads (aggregated features, the in-degree scale column, the weights, the bias row).
-/
import proofs.«116525_j23605140259107_1_alg».proof.Proof.Gen.KernelIdeal.Frame
import proofs.«116525_j23605140259107_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The block's matrix product at an index: a sum over the 128 shared features -/

theorem lhs_dot_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_dot_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_dot_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_dot_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Into the zero accumulator, entry (p, q) of the product of a 2000 × 128 block with the 128 × 256 weights is the sum
    over k of the block at (p, k) times the weights at (k, q). -/
theorem matmul_at (l : FVec Ideal S2000x128 .bf16) (r : FVec Ideal S128x256 .bf16) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) := by
  refine (Ideal.matmul_constant_zero_apply dot_S2000x128_S128x256_S2000x256_1_0_0_1_n_n none l r (ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## What the body stores: the dense stage of its 2000-row block -/

theorem pay_eq (x0 : Vec Ideal S2000x128 .f32) (x1 : Vec Ideal S2000x1 .f32) (x2 : Vec Ideal S128x256 .f32) (x3 : Vec Ideal S1x256 .f32) :
    k0_pay1 x0 x1 x2 x3 = scaleDenseRelu (R := 2000) (K := 128) (C := 256) x0 x1 x2 x3 := by
  funext j
  obtain ⟨p, q, rfl⟩ : ∃ (p : Fin 2000) (q : Fin 256), j = ix2 p q := ⟨j 0, j 1, eq_ix2 j⟩
  show _ = scaleDenseReluAt x0 x1 x2 x3 p q
  unfold k0_pay1 scaleDenseReluAt
  refine (maximumf_apply _ _ _).trans (congrArg₂ max ?_ rfl)
  refine (addf_apply _ _ _).trans (congrArg₂ (· + ·) ?_ (row_broadcast_apply x3 _ _ p q))
  refine (matmul_at _ _ p q).trans (Finset.sum_congr rfl fun k _ => congrArg₂ (· * ·) ?_ rfl)
  refine (mulf_apply _ _ _).trans (congrArg₂ (· * ·) (congrFun (shapeCast_self x0 _) _) (column_broadcast_apply x1 _ _ p k))

/-! ## The blocks: point t holds rows 2000·t … 2000·t + 1999 of the row-indexed arrays, the small arrays whole -/

/-- The printed block index maps, decided once over the 50 grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the dense stage of the arrays the region found: the stage is row-wise, and
    row p of each block is row 2000·t + p of its array. -/
theorem flushed_eq (c : Dev nD) (t : Fin cfg0.N) :
    (dat0 V c).flushed 4 t
      = ((cfg0.win 4).blk t).view.read (Elt Ideal)
          (scaleDenseRelu (V c main_v24) (V c main_v12) (V c main_arg3) (V c main_v25)) := by
  show (cfg0.win 4).cut (grid0.coords t) ((dat0 V c).after 4 t) = _
  rw [after0_4]
  unfold out0_4
  rw [View.canon_unit_zero hz]
  simp only [View.ld_unit_zero (S := S2000x128) hz, View.ld_unit_zero (S := S2000x1) hz,
    View.ld_unit_zero (S := S128x256) hz, View.ld_unit_zero (S := S1x256) hz]
  rw [pay_eq]
  obtain ⟨e00, e01, e10, e11, e20, e21, e30, e31, e40, e41⟩ := idx_facts t
  funext j
  show scaleDenseReluAt (R := 2000) (iblk0 V c 0 t) (iblk0 V c 1 t) (iblk0 V c 2 t) (iblk0 V c 3 t) (j 0) (j 1)
    = scaleDenseReluAt (R := 100000) (V c main_v24) (V c main_v12) (V c main_arg3) (V c main_v25)
        ((((cfg0.win 4).blk t).view.emb j) 0) ((((cfg0.win 4).blk t).view.emb j) 1)
  unfold scaleDenseReluAt
  have ha : ∀ k : Fin 128, iblk0 V c 0 t (ix2 (j 0) k) = V c main_v24 (ix2 ((((cfg0.win 4).blk t).view.emb j) 0) k) := fun k => by
    show V c main_v24 (((cfg0.win 0).blk t).view.emb (ix2 (j 0) k)) = _
    refine congrArg (V c main_v24) (funext fun a => Fin.ext ?_)
    match a with
    | ⟨0, _⟩ => show win0_0.index t (0 : Fin 2) * 2000 + 1 * (j 0).val = win0_4.index t (0 : Fin 2) * 2000 + 1 * (j 0).val; rw [e00, e40]
    | ⟨1, _⟩ => show win0_0.index t (1 : Fin 2) * 128 + 1 * k.val = k.val; rw [e01]; omega
  have hn : iblk0 V c 1 t (ix2 (j 0) (0 : Fin 1)) = V c main_v12 (ix2 ((((cfg0.win 4).blk t).view.emb j) 0) (0 : Fin 1)) := by
    show V c main_v12 (((cfg0.win 1).blk t).view.emb (ix2 (j 0) (0 : Fin 1))) = _
    refine congrArg (V c main_v12) (funext fun a => Fin.ext ?_)
    match a with
    | ⟨0, _⟩ => show win0_1.index t (0 : Fin 2) * 2000 + 1 * (j 0).val = win0_4.index t (0 : Fin 2) * 2000 + 1 * (j 0).val; rw [e10, e40]
    | ⟨1, _⟩ => show win0_1.index t (1 : Fin 2) * 1 + 1 * 0 = 0; rw [e11]
  have hw : ∀ k : Fin 128, iblk0 V c 2 t (ix2 k (j 1)) = V c main_arg3 (ix2 k ((((cfg0.win 4).blk t).view.emb j) 1)) := fun k => by
    show V c main_arg3 (((cfg0.win 2).blk t).view.emb (ix2 k (j 1))) = _
    refine congrArg (V c main_arg3) (funext fun a => Fin.ext ?_)
    match a with
    | ⟨0, _⟩ => show win0_2.index t (0 : Fin 2) * 128 + 1 * k.val = k.val; rw [e20]; omega
    | ⟨1, _⟩ => show win0_2.index t (1 : Fin 2) * 256 + 1 * (j 1).val = win0_4.index t (1 : Fin 2) * 256 + 1 * (j 1).val; rw [e21, e41]
  have hb : iblk0 V c 3 t (ix2 (0 : Fin 1) (j 1)) = V c main_v25 (ix2 (0 : Fin 1) ((((cfg0.win 4).blk t).view.emb j) 1)) := by
    show V c main_v25 (((cfg0.win 3).blk t).view.emb (ix2 (0 : Fin 1) (j 1))) = _
    refine congrArg (V c main_v25) (funext fun a => Fin.ext ?_)
    match a with
    | ⟨0, _⟩ => show win0_3.index t (0 : Fin 2) * 1 + 1 * 0 = 0; rw [e30]
    | ⟨1, _⟩ => show win0_3.index t (1 : Fin 2) * 256 + 1 * (j 1).val = win0_4.index t (1 : Fin 2) * 256 + 1 * (j 1).val; rw [e31, e41]
  refine congrArg₂ max (congrArg₂ (· + ·) (Finset.sum_congr rfl fun k _ => ?_) hb) rfl
  rw [ha k, hn, hw k]

/-! ## The 50 blocks cover the array -/

/-- An index of the output array is in point t's block iff each coordinate is in the block's range on its axis. -/
theorem mem_blk (t : Fin cfg0.N) (i : S100000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v26).slice (win0_4.rect t)).set ↔ _
  rw [View.set_slice_whole, Rect.mem_set_unit]
  exact Iff.rfl

/-- Row r lies in the block of point r / 2000. -/
theorem cover (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    rw [e40, ht]; omega
  | ⟨1, _⟩ =>
    show win0_4.index t (1 : Fin 2) * 256 ≤ (i 1).val ∧ (i 1).val < win0_4.index t (1 : Fin 2) * 256 + 256
    rw [e41]; omega

/-- After the region its output array holds the layer's dense stage of the arrays the region found. -/
theorem array (c : Dev nD) :
    (dat0 (F := Ideal) V c).arrAt 4 cfg0.N
      = scaleDenseRelu (V c main_v24) (V c main_v12) (V c main_arg3) (V c main_v25) := by
  exact (dat0 V c).arrAt_eq_of_cover 4 _ (fun t _ => flushed_eq V c t) cover

end Cert.KernelIdeal.Region0

end
-- ==== Proof.Region1.lean ====
/-
  The second layer's dense stage (weights first, then the out-degree scale), a block of 2000 rows at each of 50 grid
  points: the array it leaves is `denseScale` of the three arrays it reads.
-/
import proofs.«116525_j23605140259107_1_alg».proof.Proof.Gen.KernelIdeal.Frame
import proofs.«116525_j23605140259107_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The contraction at an index -/

theorem lhs_axis0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_axis1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_axis0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_axis1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block's matrix product from a zero accumulator, at (p, q): the sum over the 256 contracted positions. -/
theorem matmul_apply (l : FVec Ideal S2000x256 .bf16) (r : FVec Ideal S256x128 .bf16) (p : Fin 2000) (q : Fin 128) :
    matmul (F := Ideal) dot_S2000x256_S256x128_S2000x128_1_0_0_1_n_n none l r (constant (F := Ideal) S2000x128 .f32 0x00000000#32) (ix2 p q)
      = ∑ k : Fin 256, l (ix2 p k) * r (ix2 k q) := by
  refine (Ideal.matmul_constant_zero_apply _ none l r (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic on a block of 2000 rows -/

/-- What the body stores is `denseScale` of the three blocks it loads. -/
theorem payload_eq (x0 : Vec Ideal S2000x256 .f32) (x1 : Vec Ideal S2000x1 .f32) (x2 : Vec Ideal S256x128 .f32) :
    k1_pay1 (F := Ideal) x0 x2 x1 = denseScale (R := 2000) (K := 256) (C := 128) x0 x1 x2 := by
  funext j
  obtain ⟨p, q, rfl⟩ : ∃ (p : Fin 2000) (q : Fin 128), j = ix2 p q := ⟨j 0, j 1, ValueIdx.eq_ix2 j⟩
  unfold k1_pay1
  refine (ValueIdx.mulf_apply _ _ _).trans ?_
  rw [denseScale_apply]
  unfold denseScaleAt
  refine congrArg₂ (· * ·) ?_ ?_
  · refine (matmul_apply _ _ p q).trans ?_
    refine Finset.sum_congr rfl fun k _ => ?_
    rw [ValueIdx.truncf_apply, ValueIdx.truncf_apply, shapeCast_self]
  · exact column_broadcast_apply x1 _ _ p q

/-! ## The windows' blocks as rows of their arrays -/

/-- The three arrays the region reads, at their literal sizes. -/
abbrev featArr (c : Dev nD) : Arr 100000 256 := V c main_v26
abbrev scaleArr (c : Dev nD) : Arr 100000 1 := V c main_v10
abbrev weightArr (c : Dev nD) : Arr 256 128 := V c main_arg5

theorem npoints : cfg1.N = 50 := by decide

/-- The block index maps over the grid: the row-blocked windows sit at block (t, 0), the weights at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `2000 t + p` of the array. -/
theorem row_lt (t : Fin cfg1.N) (p : Fin 2000) : 2000 * t.val + p.val < 100000 := by
  have ht : t.val < 50 := npoints ▸ t.isLt
  have hp := p.isLt
  omega

theorem feat_block (c : Dev nD) (t : Fin cfg1.N) (p : Fin 2000) (k : Fin 256) :
    (iblk1 V c 0 t : Vec Ideal S2000x256 .f32) (ix2 p k) = featArr V c (ix2 ⟨2000 * t.val + p.val, row_lt t p⟩ k) := by
  obtain ⟨e0, e1, -⟩ := idx_facts t
  unfold iblk1
  rw [View.read_apply]
  show V c main_v26 _ = V c main_v26 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

theorem scale_block (c : Dev nD) (t : Fin cfg1.N) (p : Fin 2000) :
    (iblk1 V c 1 t : Vec Ideal S2000x1 .f32) (ix2 p (0 : Fin 1)) = scaleArr V c (ix2 ⟨2000 * t.val + p.val, row_lt t p⟩ (0 : Fin 1)) := by
  obtain ⟨-, -, e0, e1, -⟩ := idx_facts t
  unfold iblk1
  rw [View.read_apply]
  show V c main_v10 _ = V c main_v10 _
  congr 1
  funext a
  apply Fin.ext
  match a with
  | ⟨0, _⟩ => show win1_1.index t (0 : Fin 2) * 2000 + 1 * p.val = 2000 * t.val + p.val; rw [e0]; omega
  | ⟨1, _⟩ => show win1_1.index t (1 : Fin 2) * 1 + 1 * (0 : Fin 1).val = (0 : Fin 1).val; rw [e1]; rfl

/-- The weights' one block is the whole matrix. -/
theorem weight_block (c : Dev nD) (t : Fin cfg1.N) (k : Fin 256) (q : Fin 128) :
    (iblk1 V c 2 t : Vec Ideal S256x128 .f32) (ix2 k q) = weightArr V c (ix2 k q) := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t (0 : Fin 2) * 256 + 1 * k.val = k.val; rw [e0]; omega
  | ⟨1, _⟩ => show win1_2.index t (1 : Fin 2) * 128 + 1 * q.val = q.val; rw [e1]; omega

/-- Row `p` of the output's block at point `t` is row `2000 t + p` of the output array. -/
theorem out_emb (t : Fin cfg1.N) (p : Fin 2000) (q : Fin 128) :
    ((cfg1.win 3).blk t).view.emb (ix2 p q) = (ix2 ⟨2000 * t.val + p.val, row_lt t p⟩ q : S100000x128.Idx) := by
  obtain ⟨-, -, -, -, -, -, e0, e1⟩ := idx_facts t
  funext a
  apply Fin.ext
  match a with
  | ⟨0, _⟩ => show win1_3.index t (0 : Fin 2) * 2000 + 1 * p.val = 2000 * t.val + p.val; rw [e0]; omega
  | ⟨1, _⟩ => show win1_3.index t (1 : Fin 2) * 128 + 1 * q.val = q.val; rw [e1]; omega

/-! ## What a point writes back -/

/-- Point `t` writes back block `t` of `denseScale` of the arrays. -/
theorem flushed_eq (c : Dev nD) (t : Fin cfg1.N) :
    (dat1 (F := Ideal) V c).flushed 3 t
      = ((cfg1.win 3).blk t).view.read (Elt Ideal) (denseScale (featArr V c) (scaleArr V c) (weightArr V c)) := by
  show (cfg1.win 3).cut (grid1.coords t) ((dat1 V c).after 3 t) = _
  rw [after1_3]
  unfold out1_3
  rw [View.canon_unit_zero hz]
  simp only [View.ld_unit_zero (S := S2000x256) hz, View.ld_unit_zero (S := S2000x1) hz, View.ld_unit_zero (S := S256x128) hz]
  rw [payload_eq]
  funext j
  obtain ⟨p, q, rfl⟩ : ∃ (p : Fin 2000) (q : Fin 128), j = ix2 p q := ⟨j 0, j 1, ValueIdx.eq_ix2 j⟩
  show denseScale (R := 2000) (iblk1 V c 0 t) (iblk1 V c 1 t) (iblk1 V c 2 t) (ix2 p q)
    = denseScale (R := 100000) (featArr V c) (scaleArr V c) (weightArr V c) (((cfg1.win 3).blk t).view.emb (ix2 p q))
  rw [out_emb t p q, denseScale_apply, denseScale_apply]
  unfold denseScaleAt
  exact congrArg₂ (· * ·)
    (Finset.sum_congr rfl fun k _ => congrArg₂ (· * ·) (feat_block V c t p k) (weight_block V c t k q))
    (scale_block V c t p)

/-! ## The 50 blocks cover the array -/

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- Row `r` lies in the block of point `r / 2000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by rw [npoints]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 128 ≤ (i 1).val ∧ (i 1).val < win1_3.index t (1 : Fin 2) * 128 + 128
    rw [e1]; omega

/-- After the region its output array holds the product with the weights, scaled row by row. -/
theorem array (c : Dev nD) :
    (dat1 (F := Ideal) V c).arrAt 3 cfg1.N
      = denseScale (V c main_v26) (V c main_v10) (V c main_arg5) := by
  exact (dat1 V c).arrAt_eq_of_cover 3 _ (fun t _ => flushed_eq V c t) cover

end Cert.KernelIdeal.Region1

end
-- ==== Proof.Region2.lean ====
/-
  The head: the second layer's scale, bias and rectifier, and the two linear maps of the result, a block of 2000 rows
  at each of 50 grid points. Three output arrays.
-/
import proofs.«116525_j23605140259107_1_alg».proof.Proof.Gen.KernelIdeal.Frame
import proofs.«116525_j23605140259107_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

theorem hz : (![0, 0] : Fin 2 → Nat) = fun _ => 0 := funext fun a => by fin_cases a <;> rfl

/-! ## The contraction of a block of rows with a weight matrix, at an index -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a 2000 × 128 block with a 128 × 128 matrix into a zero accumulator, at (p, q): the sum over the
    inner index. -/
theorem matmul_at (l : FVec Ideal S2000x128 .bf16) (r : FVec Ideal S128x128 .bf16) (p : Fin 2000) (q : Fin 128) :
    matmul (F := Ideal) dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply _ none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic on a block of 2000 rows -/

/-- Scale by the column, add the bias row, rectify: the block's rectified features. -/
theorem pay1_eq (x0 : Vec Ideal S2000x128 .f32) (x1 : Vec Ideal S2000x1 .f32) (x2 : Vec Ideal S1x128 .f32) :
    k2_pay1 (F := Ideal) x0 x1 x2 = scaleBiasRelu (R := 2000) (C := 128) x0 x1 x2 := by
  funext j
  obtain ⟨p, q, rfl⟩ : ∃ (p : Fin 2000) (q : Fin 128), j = ix2 p q := ⟨j 0, j 1, ValueIdx.eq_ix2 j⟩
  rw [scaleBiasRelu_apply]
  unfold k2_pay1 scaleBiasReluAt
  refine (ValueIdx.maximumf_apply _ _ _).trans ?_
  refine congrArg₂ max ?_ rfl
  refine (ValueIdx.addf_apply _ _ _).trans ?_
  refine congrArg₂ (· + ·) ?_ (row_broadcast_apply x2 _ _ p q)
  refine (ValueIdx.mulf_apply _ _ _).trans ?_
  refine congrArg₂ (· * ·) ?_ (column_broadcast_apply x1 _ _ p q)
  exact congrFun (shapeCast_self x0 _) _

/-- The rounded features are the features: on the extended reals rounding is the identity. -/
theorem pay2_eq (x0 : Vec Ideal S2000x128 .f32) (x1 : Vec Ideal S2000x1 .f32) (x2 : Vec Ideal S1x128 .f32) (j : S2000x128.Idx) :
    k2_pay2 (F := Ideal) x0 x1 x2 j = scaleBiasRelu (R := 2000) (C := 128) x0 x1 x2 j := by
  unfold k2_pay2
  exact (ValueIdx.truncf_apply (ψ := .bf16) (k2_pay1 (F := Ideal) x0 x1 x2) bitsLt_bf16_f32 j).trans (congrFun (pay1_eq x0 x1 x2) j)

/-- The first linear map of the block's features. -/
theorem pay3_eq (x0 : Vec Ideal S2000x128 .f32) (x1 : Vec Ideal S2000x1 .f32) (x2 : Vec Ideal S1x128 .f32) (x3 : Vec Ideal S128x128 .f32) :
    k2_pay3 (F := Ideal) x0 x1 x2 x3 = linearOf (scaleBiasRelu (R := 2000) (C := 128) x0 x1 x2) x3 := by
  funext j
  obtain ⟨p, q, rfl⟩ : ∃ (p : Fin 2000) (q : Fin 128), j = ix2 p q := ⟨j 0, j 1, ValueIdx.eq_ix2 j⟩
  rw [linearOf_apply]
  unfold k2_pay3 linearOfAt
  refine (matmul_at _ _ p q).trans ?_
  refine Finset.sum_congr rfl fun k _ => ?_
  refine congrArg₂ (· * ·) (pay2_eq x0 x1 x2 _) ?_
  exact (ValueIdx.truncf_apply (ψ := .bf16) (shapeCast S128x128 x3 shapeCasts_S128x128_S128x128) bitsLt_bf16_f32 (ix2 k q)).trans (congrFun (shapeCast_self x3 _) _)

/-- The second linear map of the block's features. -/
theorem pay4_eq (x0 : Vec Ideal S2000x128 .f32) (x1 : Vec Ideal S2000x1 .f32) (x2 : Vec Ideal S1x128 .f32) (x4 : Vec Ideal S128x128 .f32) :
    k2_pay4 (F := Ideal) x0 x1 x2 x4 = linearOf (scaleBiasRelu (R := 2000) (C := 128) x0 x1 x2) x4 := by
  funext j
  obtain ⟨p, q, rfl⟩ : ∃ (p : Fin 2000) (q : Fin 128), j = ix2 p q := ⟨j 0, j 1, ValueIdx.eq_ix2 j⟩
  rw [linearOf_apply]
  unfold k2_pay4 linearOfAt
  refine (matmul_at _ _ p q).trans ?_
  refine Finset.sum_congr rfl fun k _ => ?_
  refine congrArg₂ (· * ·) (pay2_eq x0 x1 x2 _) ?_
  exact (ValueIdx.truncf_apply (ψ := .bf16) (shapeCast S128x128 x4 shapeCasts_S128x128_S128x128) bitsLt_bf16_f32 (ix2 k q)).trans (congrFun (shapeCast_self x4 _) _)

-- the TensorCore's buffer contents when the region is entered
variable (V : (c : Dev nD) → (b : Ref sig .tc) → Buf (Elt Ideal) ((c : Thread nD τ).loc b))

/-! ## The blocks: point t holds rows 2000·t … 2000·t + 1999 of the row-indexed arrays, the small arrays whole -/

/-- The blocks' index maps, decided once over the 50 grid points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row p of point t's block is a row of the array. -/
theorem row_lt (t : Fin cfg2.N) (p : Fin 2000) : 2000 * t.val + p.val < 100000 := by
  have ht : t.val < 50 := lt_of_lt_of_eq t.isLt (show cfg2.N = 50 from N_2)
  have hp := p.isLt
  omega

/-- Row p of point t's block, as a row of the array. -/
abbrev rowOf (t : Fin cfg2.N) (p : Fin 2000) : Fin 100000 := ⟨2000 * t.val + p.val, row_lt t p⟩

/-- The features' block at point t: rows 2000·t … of the features. -/
theorem feat_blk (c : Dev nD) (t : Fin cfg2.N) (p : Fin 2000) (q : Fin 128) :
    iblk2 V c 0 t (ix2 p q) = V c main_v37 (ix2 (rowOf t p) q) := by
  obtain ⟨e0, e1, -⟩ := idx_facts t
  show V c main_v37 (((cfg2.win 0).blk t).view.emb (ix2 p q)) = _
  refine congrArg (V c main_v37) (funext fun a => Fin.ext ?_)
  match a with
  | ⟨0, _⟩ => show win2_0.index t (0 : Fin 2) * 2000 + 1 * p.val = 2000 * t.val + p.val; rw [e0]; omega
  | ⟨1, _⟩ => show win2_0.index t (1 : Fin 2) * 128 + 1 * q.val = q.val; rw [e1]; omega

/-- The scales' block at point t: rows 2000·t … of the column of scales. -/
theorem scale_blk (c : Dev nD) (t : Fin cfg2.N) (p : Fin 2000) :
    iblk2 V c 1 t (ix2 p (0 : Fin 1)) = V c main_v12 (ix2 (rowOf t p) (0 : Fin 1)) := by
  obtain ⟨-, -, e0, e1, -⟩ := idx_facts t
  show V c main_v12 (((cfg2.win 1).blk t).view.emb (ix2 p (0 : Fin 1))) = _
  refine congrArg (V c main_v12) (funext fun a => Fin.ext ?_)
  match a with
  | ⟨0, _⟩ => show win2_1.index t (0 : Fin 2) * 2000 + 1 * p.val = 2000 * t.val + p.val; rw [e0]; omega
  | ⟨1, _⟩ => show win2_1.index t (1 : Fin 2) * 1 + 1 * 0 = 0; rw [e1]

/-- The bias' block at every point: the whole row. -/
theorem bias_blk (c : Dev nD) (t : Fin cfg2.N) (q : Fin 128) :
    iblk2 V c 2 t (ix2 (0 : Fin 1) q) = V c main_v40 (ix2 (0 : Fin 1) q) := by
  obtain ⟨-, -, -, -, e0, e1, -⟩ := idx_facts t
  show V c main_v40 (((cfg2.win 2).blk t).view.emb (ix2 (0 : Fin 1) q)) = _
  refine congrArg (V c main_v40) (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- The first weight matrix' block at every point: the whole matrix. -/
theorem weight1_blk (c : Dev nD) (t : Fin cfg2.N) (k q : Fin 128) :
    iblk2 V c 3 t (ix2 k q) = V c main_v38 (ix2 k q) := by
  obtain ⟨-, -, -, -, -, -, e0, e1, -⟩ := idx_facts t
  show V c main_v38 (((cfg2.win 3).blk t).view.emb (ix2 k q)) = _
  refine congrArg (V c main_v38) (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The second weight matrix' block at every point: the whole matrix. -/
theorem weight2_blk (c : Dev nD) (t : Fin cfg2.N) (k q : Fin 128) :
    iblk2 V c 4 t (ix2 k q) = V c main_v39 (ix2 k q) := by
  obtain ⟨-, -, -, -, -, -, -, -, e0, e1, -⟩ := idx_facts t
  show V c main_v39 (((cfg2.win 4).blk t).view.emb (ix2 k q)) = _
  refine congrArg (V c main_v39) (funext fun a => Fin.ext ?_)
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-! ## The specification is row-wise: a block of it is it of the blocks -/

/-- The rectified features of point t's blocks, at row p: those of the arrays at row 2000·t + p. -/
theorem relu_blk (c : Dev nD) (t : Fin cfg2.N) (p : Fin 2000) (q : Fin 128) :
    scaleBiasReluAt (R := 2000) (C := 128) (iblk2 V c 0 t) (iblk2 V c 1 t) (iblk2 V c 2 t) p q
      = scaleBiasReluAt (R := 100000) (C := 128) (V c main_v37) (V c main_v12) (V c main_v40) (rowOf t p) q := by
  unfold scaleBiasReluAt
  exact congrArg₂ max (congrArg₂ (· + ·) (congrArg₂ (· * ·) (feat_blk V c t p q) (scale_blk V c t p)) (bias_blk V c t q)) rfl

/-- A linear map of them, the matrix one of the arrays. -/
theorem linear_blk (c : Dev nD) (t : Fin cfg2.N) (w : Arr 128 128) (p : Fin 2000) (q : Fin 128) :
    linearOfAt (R := 2000) (K := 128) (C := 128) (scaleBiasRelu (R := 2000) (C := 128) (iblk2 V c 0 t) (iblk2 V c 1 t) (iblk2 V c 2 t)) w p q
      = linearOfAt (R := 100000) (K := 128) (C := 128) (scaleBiasRelu (R := 100000) (C := 128) (V c main_v37) (V c main_v12) (V c main_v40)) w (rowOf t p) q := by
  unfold linearOfAt
  refine Finset.sum_congr rfl fun k _ => congrArg₂ (· * ·) ?_ rfl
  exact relu_blk V c t p k

/-! ## What each point writes back -/

/-- The output windows' blocks at point t: rows 2000·t … of their arrays. -/
theorem emb_out5 (t : Fin cfg2.N) (p : Fin 2000) (q : Fin 128) :
    ((cfg2.win 5).blk t).view.emb (ix2 p q) = ix2 (rowOf t p) q := by
  obtain ⟨-, -, -, -, -, -, -, -, -, -, e0, e1, -⟩ := idx_facts t
  funext a; apply Fin.ext
  match a with
  | ⟨0, _⟩ => show win2_5.index t (0 : Fin 2) * 2000 + 1 * p.val = 2000 * t.val + p.val; rw [e0]; omega
  | ⟨1, _⟩ => show win2_5.index t (1 : Fin 2) * 128 + 1 * q.val = q.val; rw [e1]; omega
theorem emb_out6 (t : Fin cfg2.N) (p : Fin 2000) (q : Fin 128) :
    ((cfg2.win 6).blk t).view.emb (ix2 p q) = ix2 (rowOf t p) q := by
  obtain ⟨-, -, -, -, -, -, -, -, -, -, -, -, e0, e1, -⟩ := idx_facts t
  funext a; apply Fin.ext
  match a with
  | ⟨0, _⟩ => show win2_6.index t (0 : Fin 2) * 2000 + 1 * p.val = 2000 * t.val + p.val; rw [e0]; omega
  | ⟨1, _⟩ => show win2_6.index t (1 : Fin 2) * 128 + 1 * q.val = q.val; rw [e1]; omega
theorem emb_out7 (t : Fin cfg2.N) (p : Fin 2000) (q : Fin 128) :
    ((cfg2.win 7).blk t).view.emb (ix2 p q) = ix2 (rowOf t p) q := by
  obtain ⟨-, -, -, -, -, -, -, -, -, -, -, -, -, -, e0, e1⟩ := idx_facts t
  funext a; apply Fin.ext
  match a with
  | ⟨0, _⟩ => show win2_7.index t (0 : Fin 2) * 2000 + 1 * p.val = 2000 * t.val + p.val; rw [e0]; omega
  | ⟨1, _⟩ => show win2_7.index t (1 : Fin 2) * 128 + 1 * q.val = q.val; rw [e1]; omega

/-- What point t writes back to the first output is block t of the rectified features of the arrays. -/
theorem flushed5_eq (c : Dev nD) (t : Fin cfg2.N) :
    (dat2 V c).flushed 5 t
      = ((cfg2.win 5).blk t).view.read (Elt Ideal) (scaleBiasRelu (V c main_v37) (V c main_v12) (V c main_v40)) := by
  show (cfg2.win 5).cut (grid2.coords t) ((dat2 V c).after 5 t) = _
  rw [after2_5]
  unfold out2_5
  rw [View.canon_unit_zero hz]
  simp only [View.ld_unit_zero (S := S2000x128) hz, View.ld_unit_zero (S := S2000x1) hz, View.ld_unit_zero (S := S1x128) hz]
  rw [pay1_eq]
  funext j
  obtain ⟨p, q, rfl⟩ : ∃ (p : Fin 2000) (q : Fin 128), j = ix2 p q := ⟨j 0, j 1, ValueIdx.eq_ix2 j⟩
  show scaleBiasRelu (R := 2000) (C := 128) (iblk2 V c 0 t) (iblk2 V c 1 t) (iblk2 V c 2 t) (ix2 p q)
    = scaleBiasRelu (R := 100000) (C := 128) (V c main_v37) (V c main_v12) (V c main_v40) (((cfg2.win 5).blk t).view.emb (ix2 p q))
  rw [emb_out5, scaleBiasRelu_apply, scaleBiasRelu_apply]
  exact relu_blk V c t p q

/-- The weight matrices' blocks are the matrices. -/
theorem weight1_eq (c : Dev nD) (t : Fin cfg2.N) : (iblk2 V c 3 t : Arr 128 128) = V c main_v38 := by
  funext j
  obtain ⟨k, q, rfl⟩ : ∃ (k : Fin 128) (q : Fin 128), j = ix2 k q := ⟨j 0, j 1, ValueIdx.eq_ix2 j⟩
  exact weight1_blk V c t k q
theorem weight2_eq (c : Dev nD) (t : Fin cfg2.N) : (iblk2 V c 4 t : Arr 128 128) = V c main_v39 := by
  funext j
  obtain ⟨k, q, rfl⟩ : ∃ (k : Fin 128) (q : Fin 128), j = ix2 k q := ⟨j 0, j 1, ValueIdx.eq_ix2 j⟩
  exact weight2_blk V c t k q

/-- What point t writes back to the second output is block t of the first linear map of the rectified features. -/
theorem flushed6_eq (c : Dev nD) (t : Fin cfg2.N) :
    (dat2 V c).flushed 6 t
      = ((cfg2.win 6).blk t).view.read (Elt Ideal)
          (linearOf (scaleBiasRelu (V c main_v37) (V c main_v12) (V c main_v40)) (V c main_v38)) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz, View.ld_unit_zero (S := S1x128) hz,
    View.ld_unit_zero (S := S128x128) hz]
  rw [pay3_eq]
  funext j
  obtain ⟨p, q, rfl⟩ : ∃ (p : Fin 2000) (q : Fin 128), j = ix2 p q := ⟨j 0, j 1, ValueIdx.eq_ix2 j⟩
  show linearOf (R := 2000) (K := 128) (C := 128) (scaleBiasRelu (R := 2000) (C := 128) (iblk2 V c 0 t) (iblk2 V c 1 t) (iblk2 V c 2 t)) (iblk2 V c 3 t) (ix2 p q)
    = linearOf (R := 100000) (K := 128) (C := 128) (scaleBiasRelu (R := 100000) (C := 128) (V c main_v37) (V c main_v12) (V c main_v40)) (V c main_v38)
        (((cfg2.win 6).blk t).view.emb (ix2 p q))
  rw [emb_out6, linearOf_apply, linearOf_apply, weight1_eq]
  exact linear_blk V c t (V c main_v38) p q

/-- What point t writes back to the third output is block t of the second linear map of the rectified features. -/
theorem flushed7_eq (c : Dev nD) (t : Fin cfg2.N) :
    (dat2 V c).flushed 7 t
      = ((cfg2.win 7).blk t).view.read (Elt Ideal)
          (linearOf (scaleBiasRelu (V c main_v37) (V c main_v12) (V c main_v40)) (V c main_v39)) := by
  show (cfg2.win 7).cut (grid2.coords t) ((dat2 V c).after 7 t) = _
  rw [after2_7]
  unfold out2_7
  rw [View.canon_unit_zero hz]
  simp only [View.ld_unit_zero (S := S2000x128) hz, View.ld_unit_zero (S := S2000x1) hz, View.ld_unit_zero (S := S1x128) hz,
    View.ld_unit_zero (S := S128x128) hz]
  rw [pay4_eq]
  funext j
  obtain ⟨p, q, rfl⟩ : ∃ (p : Fin 2000) (q : Fin 128), j = ix2 p q := ⟨j 0, j 1, ValueIdx.eq_ix2 j⟩
  show linearOf (R := 2000) (K := 128) (C := 128) (scaleBiasRelu (R := 2000) (C := 128) (iblk2 V c 0 t) (iblk2 V c 1 t) (iblk2 V c 2 t)) (iblk2 V c 4 t) (ix2 p q)
    = linearOf (R := 100000) (K := 128) (C := 128) (scaleBiasRelu (R := 100000) (C := 128) (V c main_v37) (V c main_v12) (V c main_v40)) (V c main_v39)
        (((cfg2.win 7).blk t).view.emb (ix2 p q))
  rw [emb_out7, linearOf_apply, linearOf_apply, weight2_eq]
  exact linear_blk V c t (V c main_v39) p q

/-! ## The 50 blocks cover each output array -/

/-- An index of an output array is in point t's block iff each coordinate is in the block's range on its axis. -/
theorem mem_blk5 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v41_0).slice (win2_5.rect t)).set ↔ _
  rw [View.set_slice_whole, Rect.mem_set_unit]
  exact Iff.rfl
theorem mem_blk6 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v41_1).slice (win2_6.rect t)).set ↔ _
  rw [View.set_slice_whole, Rect.mem_set_unit]
  exact Iff.rfl
theorem mem_blk7 (t : Fin cfg2.N) (i : S100000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v41_2).slice (win2_7.rect t)).set ↔ _
  rw [View.set_slice_whole, Rect.mem_set_unit]
  exact Iff.rfl

/-- The point whose block holds row r: r / 2000. -/
theorem point_of_row (i : S100000x128.Idx) : ∃ t : Fin cfg2.N, t.val = (i 0).val / 2000 := by
  have hi0 : (i 0).val < 100000 := (i 0).isLt
  exact ⟨⟨(i 0).val / 2000, by rw [show cfg2.N = 50 from N_2]; omega⟩, rfl⟩

/-- Row r lies in the block of point r / 2000, in each output array. -/
theorem cover5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := point_of_row i
  obtain ⟨-, -, -, -, -, -, -, -, -, -, e0, e1, -⟩ := idx_facts t
  refine ⟨t, flush2_5 t, ?_⟩
  rw [mem_blk5]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 128 ≤ (i 1).val ∧ (i 1).val < win2_5.index t (1 : Fin 2) * 128 + 128
    rw [e1]; omega
theorem cover6 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := point_of_row i
  obtain ⟨-, -, -, -, -, -, -, -, -, -, -, -, e0, e1, -⟩ := idx_facts t
  refine ⟨t, flush2_6 t, ?_⟩
  rw [mem_blk6]
  intro a
  match a with
  | ⟨0, _⟩ =>
    show win2_6.index t (0 : Fin 2) * 2000 ≤ (i 0).val ∧ (i 0).val < win2_6.index t (0 : Fin 2) * 2000 + 2000
    rw [e0, ht]; omega
  | ⟨1, _⟩ =>
    show win2_6.index t (1 : Fin 2) * 128 ≤ (i 1).val ∧ (i 1).val < win2_6.index t (1 : Fin 2) * 128 + 128
    rw [e1]; omega
theorem cover7 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ := point_of_row i
  obtain ⟨-, -, -, -, -, -, -, -, -, -, -, -, -, -, e0, e1⟩ := idx_facts t
  refine ⟨t, flush2_7 t, ?_⟩
  rw [mem_blk7]
  intro a
  match a with
  | ⟨0, _⟩ =>
    show win2_7.index t (0 : Fin 2) * 2000 ≤ (i 0).val ∧ (i 0).val < win2_7.index t (0 : Fin 2) * 2000 + 2000
    rw [e0, ht]; omega
  | ⟨1, _⟩ =>
    show win2_7.index t (1 : Fin 2) * 128 ≤ (i 1).val ∧ (i 1).val < win2_7.index t (1 : Fin 2) * 128 + 128
    rw [e1]; omega

/-! ## The three arrays after the region -/

/-- The rectified second-layer features. -/
theorem array5 (c : Dev nD) :
    (dat2 (F := Ideal) V c).arrAt 5 cfg2.N
      = scaleBiasRelu (V c main_v37) (V c main_v12) (V c main_v40) := by
  exact (dat2 V c).arrAt_eq_of_cover 5 _ (fun t _ => flushed5_eq V c t) cover5

/-- The first linear head of them. -/
theorem array6 (c : Dev nD) :
    (dat2 (F := Ideal) V c).arrAt 6 cfg2.N
      = linearOf (scaleBiasRelu (V c main_v37) (V c main_v12) (V c main_v40)) (V c main_v38) := by
  exact (dat2 V c).arrAt_eq_of_cover 6 _ (fun t _ => flushed6_eq V c t) cover6

/-- The second linear head of them. -/
theorem array7 (c : Dev nD) :
    (dat2 (F := Ideal) V c).arrAt 7 cfg2.N
      = linearOf (scaleBiasRelu (V c main_v37) (V c main_v12) (V c main_v40)) (V c main_v39) := by
  exact (dat2 V c).arrAt_eq_of_cover 7 _ (fun t _ => flushed7_eq V c t) cover7

end Cert.KernelIdeal.Region2

end
-- ==== Proof.RefStages.lean ====
/-
  The reference's dense stages read index by index: each is the same row-wise function of whole arrays that the kernel's
  regions compute (Spec.lean), applied to the reference's own earlier stages. The gather and scatter-add stages between
  them are never opened.
-/
import proofs.«116525_j23605140259107_1_alg».proof.Proof.Gen.ReferenceIdeal.Run
import proofs.«116525_j23605140259107_1_alg».proof.Proof.Gen.ReferenceIdeal.Read
import proofs.«116525_j23605140259107_1_alg».proof.Proof.Spec

set_option maxRecDepth 16384

noncomputable section

namespace Cert.ReferenceIdeal.Stages

open Idealize.ShloMosaic Idealize.ShloMosaic.TcCoe Idealize.ShloMosaic.ValueIdx Idealize.SL.Sem
open Cert.ReferenceIdeal Cert.ReferenceIdeal.Read Cert.GraphConv

/-! ## The reference's index functions at literal coordinates -/

theorem lidx27_ix2 (p : Fin 100000) (q : Fin 256) (k : Fin 128) : lidx_main_v27 (ix2 p q) k = ix2 p k :=
  funext fun a => Fin.ext (by match a with | ⟨0, _⟩ => rfl | ⟨1, _⟩ => rfl)

theorem ridx27_ix2 (p : Fin 100000) (q : Fin 256) (k : Fin 128) : ridx_main_v27 (ix2 p q) k = ix2 k q :=
  funext fun a => Fin.ext (by match a with | ⟨0, _⟩ => rfl | ⟨1, _⟩ => rfl)

theorem idx25_ix2 (p : Fin 100000) (k : Fin 128) : idx_main_v25 (ix2 p k) = ix2 p (0 : Fin 1) :=
  funext fun a => Fin.ext (by match a with | ⟨0, _⟩ => rfl | ⟨1, _⟩ => rfl)

theorem idx29_ix2 (p : Fin 100000) (q : Fin 256) : idx_main_v29 (ix2 p q) = ix2 (0 : Fin 1) q :=
  funext fun a => Fin.ext (by match a with | ⟨0, _⟩ => rfl | ⟨1, _⟩ => rfl)

theorem lidx32_ix2 (p : Fin 100000) (q : Fin 128) (k : Fin 256) : lidx_main_v32 (ix2 p q) k = ix2 p k :=
  funext fun a => Fin.ext (by match a with | ⟨0, _⟩ => rfl | ⟨1, _⟩ => rfl)

theorem ridx32_ix2 (p : Fin 100000) (q : Fin 128) (k : Fin 256) : ridx_main_v32 (ix2 p q) k = ix2 k q :=
  funext fun a => Fin.ext (by match a with | ⟨0, _⟩ => rfl | ⟨1, _⟩ => rfl)

theorem idx34_ix2 (p : Fin 100000) (q : Fin 128) : idx_main_v34 (ix2 p q) = ix2 p (0 : Fin 1) :=
  funext fun a => Fin.ext (by match a with | ⟨0, _⟩ => rfl | ⟨1, _⟩ => rfl)

theorem idx47_ix2 (p : Fin 100000) (q : Fin 128) : idx_main_v47 (ix2 p q) = ix2 p (0 : Fin 1) :=
  funext fun a => Fin.ext (by match a with | ⟨0, _⟩ => rfl | ⟨1, _⟩ => rfl)

theorem idx50_ix2 (p : Fin 100000) (q : Fin 128) : idx_main_v50 (ix2 p q) = ix2 (0 : Fin 1) q :=
  funext fun a => Fin.ext (by match a with | ⟨0, _⟩ => rfl | ⟨1, _⟩ => rfl)

theorem lidx54_ix2 (p : Fin 100000) (q : Fin 128) (k : Fin 128) : lidx_main_v54 (ix2 p q) k = ix2 p k :=
  funext fun a => Fin.ext (by match a with | ⟨0, _⟩ => rfl | ⟨1, _⟩ => rfl)

theorem ridx54_ix2 (p : Fin 100000) (q : Fin 128) (k : Fin 128) : ridx_main_v54 (ix2 p q) k = ix2 k q :=
  funext fun a => Fin.ext (by match a with | ⟨0, _⟩ => rfl | ⟨1, _⟩ => rfl)

theorem lidx56_ix2 (p : Fin 100000) (q : Fin 128) (k : Fin 128) : lidx_main_v56 (ix2 p q) k = ix2 p k :=
  funext fun a => Fin.ext (by match a with | ⟨0, _⟩ => rfl | ⟨1, _⟩ => rfl)

theorem ridx56_ix2 (p : Fin 100000) (q : Fin 128) (k : Fin 128) : ridx_main_v56 (ix2 p q) k = ix2 k q :=
  funext fun a => Fin.ext (by match a with | ⟨0, _⟩ => rfl | ⟨1, _⟩ => rfl)

/-- The first layer: relu ((agg · in-scale) W1 + b1). -/
theorem v31_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x256, .f32⟩ : BufTy).Contents (Elt Ideal)) (x4 : (⟨S256, .f32⟩ : BufTy).Contents (Elt Ideal)) :
    val_main_v31 (F := Ideal) x0 x1 x2 x3 x4
      = scaleDenseRelu (val_main_v23 (F := Ideal) x0 x1 x2) (val_main_v24 (F := Ideal) x2) x3 (val_main_v28 (F := Ideal) x4) := by
  funext i
  obtain ⟨p, q, rfl⟩ : ∃ (p : Fin 100000) (q : Fin 256), i = ix2 p q := ⟨i 0, i 1, ValueIdx.eq_ix2 i⟩
  rw [scaleDenseRelu_apply]
  unfold scaleDenseReluAt
  rw [val_main_v31_apply, val_main_v30_apply, val_main_v27_apply, val_main_v29_apply, val_main_call2_v0_apply,
    val_main_call2_cst_apply, idx29_ix2]
  have hsum : (∑ k : Fin 128, (val_main_v26 (F := Ideal) x0 x1 x2) (lidx_main_v27 (ix2 p q) k) * x3 (ridx_main_v27 (ix2 p q) k))
      = ∑ k : Fin 128, (val_main_v23 (F := Ideal) x0 x1 x2 (ix2 p k) * val_main_v24 (F := Ideal) x2 (ix2 p (0 : Fin 1))) * x3 (ix2 k q) :=
    Finset.sum_congr rfl fun k _ => by
      rw [lidx27_ix2, ridx27_ix2, val_main_v26_apply, val_main_v25_apply, idx25_ix2]
      rfl
  rw [hsum]
  rfl

/-- The second layer before aggregation: (h1 W2) · out-scale. -/
theorem v35_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x256, .f32⟩ : BufTy).Contents (Elt Ideal)) (x4 : (⟨S256, .f32⟩ : BufTy).Contents (Elt Ideal)) (x5 : (⟨S256x128, .f32⟩ : BufTy).Contents (Elt Ideal)) :
    val_main_v35 (F := Ideal) x0 x1 x2 x3 x4 x5
      = denseScale (val_main_v31 (F := Ideal) x0 x1 x2 x3 x4) (val_main_v33 (F := Ideal) x1) x5 := by
  funext i
  obtain ⟨p, q, rfl⟩ : ∃ (p : Fin 100000) (q : Fin 128), i = ix2 p q := ⟨i 0, i 1, ValueIdx.eq_ix2 i⟩
  rw [denseScale_apply]
  unfold denseScaleAt
  rw [val_main_v35_apply, val_main_v32_apply, val_main_v34_apply, idx34_ix2]
  have hsum : (∑ k : Fin 256, (val_main_v31 (F := Ideal) x0 x1 x2 x3 x4) (lidx_main_v32 (ix2 p q) k) * x5 (ridx_main_v32 (ix2 p q) k))
      = ∑ k : Fin 256, val_main_v31 (F := Ideal) x0 x1 x2 x3 x4 (ix2 p k) * x5 (ix2 k q) :=
    Finset.sum_congr rfl fun k _ => by rw [lidx32_ix2, ridx32_ix2]
  rw [hsum]
  rfl

/-- The second layer after aggregation: relu (agg · in-scale + b2). -/
theorem v52_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) :
    val_main_v52 (F := Ideal) x0 x1 x2 x3 x4 x5 x6
      = scaleBiasRelu (val_main_v45 (F := Ideal) x0 x1 x2 x3 x4 x5) (val_main_v46 (F := Ideal) x2) (val_main_v49 (F := Ideal) x6) := by
  funext i
  obtain ⟨p, q, rfl⟩ : ∃ (p : Fin 100000) (q : Fin 128), i = ix2 p q := ⟨i 0, i 1, ValueIdx.eq_ix2 i⟩
  rw [scaleBiasRelu_apply]
  unfold scaleBiasReluAt
  rw [val_main_v52_apply, val_main_v51_apply, val_main_v48_apply, val_main_v47_apply, val_main_v50_apply,
    val_main_call3_v0_apply, val_main_call3_cst_apply, idx47_ix2, idx50_ix2]
  rfl

/-- The first linear head. -/
theorem v54_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) :
    val_main_v54 (F := Ideal) x0 x1 x2 x3 x4 x5 x6 x7
      = linearOf (val_main_v52 (F := Ideal) x0 x1 x2 x3 x4 x5 x6) (val_main_v53 (F := Ideal) x7) := by
  funext i
  obtain ⟨p, q, rfl⟩ : ∃ (p : Fin 100000) (q : Fin 128), i = ix2 p q := ⟨i 0, i 1, ValueIdx.eq_ix2 i⟩
  rw [linearOf_apply]
  unfold linearOfAt
  rw [val_main_v54_apply]
  exact Finset.sum_congr rfl fun k _ => by rw [lidx54_ix2, ridx54_ix2]

/-- The second linear head. -/
theorem v56_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x8 : (⟨S128x128, .f32⟩ : BufTy).Contents (Elt Ideal)) :
    val_main_v56 (F := Ideal) x0 x1 x2 x3 x4 x5 x6 x8
      = linearOf (val_main_v52 (F := Ideal) x0 x1 x2 x3 x4 x5 x6) (val_main_v55 (F := Ideal) x8) := by
  funext i
  obtain ⟨p, q, rfl⟩ : ∃ (p : Fin 100000) (q : Fin 128), i = ix2 p q := ⟨i 0, i 1, ValueIdx.eq_ix2 i⟩
  rw [linearOf_apply]
  unfold linearOfAt
  rw [val_main_v56_apply]
  exact Finset.sum_congr rfl fun k _ => by rw [lidx56_ix2, ridx56_ix2]

end Cert.ReferenceIdeal.Stages

end
-- ==== Proof.KFold.lean ====
/-
  The kernel program's three results as the reference's stage functions of the arguments.

  Between the regions the program runs the same host operations as the reference (degrees, their clipped inverse square
  roots, the gather and the scatter-add of each layer); a region's output array is the dense stage of the arrays it
  found (Region0, Region1, Region2), which is the reference's dense stage of the same arrays (RefStages). Walking the
  buffer contents from the launch memory to the last boundary, each buffer a region reads is the reference's stage of
  the arguments, and so are the three results. The one difference in spelling on the way: the kernel program makes the
  scale columns [n, 1] and the bias rows [1, n] by a reshape where the reference broadcasts along a new axis; the two
  are one array.
-/
import proofs.«116525_j23605140259107_1_alg».proof.Proof.Gen.KernelIdeal.Frame
import proofs.«116525_j23605140259107_1_alg».proof.Proof.Region0
import proofs.«116525_j23605140259107_1_alg».proof.Proof.Region1
import proofs.«116525_j23605140259107_1_alg».proof.Proof.Region2
import proofs.«116525_j23605140259107_1_alg».proof.Proof.RefStages
import Idealize.ShloMosaic.Lib.StableHlo.Run
import Idealize.ShloMosaic.Lib.Pipeline.Value

set_option maxRecDepth 16384

noncomputable section

namespace Cert.KernelIdeal.Fold

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.GraphConv
open Cert.ReferenceIdeal.Read Cert.ReferenceIdeal.Stages

/-! ## A reshape to a column, or to a row, is the broadcast along the new axis -/

section Layout
variable {α : Type}

/-- A vector [a] reshaped to a column [a, 1] is the vector broadcast along a new last axis. -/
theorem reshape_column {a : ℕ} (v : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ v h = broadcastInDim ⟨2, ![a, 1]⟩ ![0] hb v := by
  funext j
  obtain ⟨p, z, rfl⟩ : ∃ (p : Fin a) (z : Fin 1), j = ix2 p z := ⟨j 0, j 1, eq_ix2 j⟩
  refine (shapeCast_apply v h _ (ix1 p) ?_).trans (broadcastInDim_apply _ hb v _ (ix1 p) fun ax => ?_).symm
  · rw [Shape.rowMajor_val_one, Shape.rowMajor_val_two]
    show p.val = p.val * 1 + z.val
    have := z.isLt; omega
  · match ax with
    | ⟨0, _⟩ =>
      show p.val = if a = 1 then 0 else p.val
      split
      · have := p.isLt; omega
      · rfl

/-- A vector [b] reshaped to a row [1, b] is the vector broadcast along a new first axis. -/
theorem reshape_row {b : ℕ} (v : (⟨1, ![b]⟩ : Shape).Idx → α)
    (h : (⟨1, ![b]⟩ : Shape).ShapeCasts ⟨2, ![1, b]⟩) (hb : (⟨1, ![b]⟩ : Shape).BroadcastsInDim ⟨2, ![1, b]⟩ ![1]) :
    shapeCast ⟨2, ![1, b]⟩ v h = broadcastInDim ⟨2, ![1, b]⟩ ![1] hb v := by
  funext j
  obtain ⟨z, q, rfl⟩ : ∃ (z : Fin 1) (q : Fin b), j = ix2 z q := ⟨j 0, j 1, eq_ix2 j⟩
  refine (shapeCast_apply v h _ (ix1 q) ?_).trans (broadcastInDim_apply _ hb v _ (ix1 q) fun ax => ?_).symm
  · rw [Shape.rowMajor_val_one, Shape.rowMajor_val_two]
    show q.val = z.val * b + q.val
    have := z.isLt
    have hz : z.val = 0 := by omega
    rw [hz]; omega
  · match ax with
    | ⟨0, _⟩ =>
      show q.val = if b = 1 then 0 else q.val
      split
      · have := q.isLt; omega
      · rfl

end Layout

variable (m : (ℓ : Loc nD τ sig) → Buf (Elt Ideal) ℓ) (ρ : Dev nD → PrngReg)

/-! ## The arguments, by their literal types -/

abbrev x0 (c : Dev nD) : (⟨Cert.ReferenceIdeal.S100000x128, .f32⟩ : BufTy).Contents (Elt Ideal) := m ((c : Thread nD τ).loc main_arg0)
abbrev x1 (c : Dev nD) : (⟨Cert.ReferenceIdeal.S1600000, .i32⟩ : BufTy).Contents (Elt Ideal) := m ((c : Thread nD τ).loc main_arg1)
abbrev x2 (c : Dev nD) : (⟨Cert.ReferenceIdeal.S1600000, .i32⟩ : BufTy).Contents (Elt Ideal) := m ((c : Thread nD τ).loc main_arg2)
abbrev x3 (c : Dev nD) : (⟨Cert.ReferenceIdeal.S128x256, .f32⟩ : BufTy).Contents (Elt Ideal) := m ((c : Thread nD τ).loc main_arg3)
abbrev x4 (c : Dev nD) : (⟨Cert.ReferenceIdeal.S256, .f32⟩ : BufTy).Contents (Elt Ideal) := m ((c : Thread nD τ).loc main_arg4)
abbrev x5 (c : Dev nD) : (⟨Cert.ReferenceIdeal.S256x128, .f32⟩ : BufTy).Contents (Elt Ideal) := m ((c : Thread nD τ).loc main_arg5)
abbrev x6 (c : Dev nD) : (⟨Cert.ReferenceIdeal.S128, .f32⟩ : BufTy).Contents (Elt Ideal) := m ((c : Thread nD τ).loc main_arg6)
abbrev x7 (c : Dev nD) : (⟨Cert.ReferenceIdeal.S128x128, .f32⟩ : BufTy).Contents (Elt Ideal) := m ((c : Thread nD τ).loc main_arg7)
abbrev x8 (c : Dev nD) : (⟨Cert.ReferenceIdeal.S128x128, .f32⟩ : BufTy).Contents (Elt Ideal) := m ((c : Thread nD τ).loc main_arg8)

/-! ## The host operations between the regions, in the reference's own stage functions -/

abbrev Sc := (⟨S_, .f32⟩ : BufTy).Contents (Elt Ideal)
abbrev Vn := (⟨S100000, .f32⟩ : BufTy).Contents (Elt Ideal)
abbrev Col := (⟨S100000x1, .f32⟩ : BufTy).Contents (Elt Ideal)
abbrev Feat := (⟨S100000x128, .f32⟩ : BufTy).Contents (Elt Ideal)
abbrev Ix := (⟨S1600000, .i32⟩ : BufTy).Contents (Elt Ideal)

/-- A degree vector clipped below at `one`. -/
def clipAt (one : Sc) (s : Vn) : Vn :=
  maximumf (F := Ideal) (φ := .f32) (broadcastInDim S100000 ![] Gen.bcast_S_S100000 (id one)) s

/-- The inverse square roots of a clipped degree vector, as a column. -/
def colOf (s : Vn) : Col := shapeCast S100000x1 (Host.rsqrt (F := Ideal) (φ := .f32) s) Gen.shapeCasts_S100000_S100000x1

/-- Features scaled row by row by a column. -/
def scaled (x : Feat) (n : Col) : Feat :=
  mulf (F := Ideal) (φ := .f32) x (broadcastInDim S100000x128 ![0, 1] Gen.bcast_S100000x1_S100000x128_0_1 n)

/-- The sum, into each node d, of the rows of `x` at the sources of the edges into d: the gather along the (wrapped)
    source indices `s` and the scatter-add along the destination indices `d`, as the reference spells them. -/
def aggOf (x : Feat) (s d : Ix) : Feat :=
  Host.scatterAdd (F := Ideal) Cert.ReferenceIdeal.scatter_S100000x128_S1600000x1_S1600000x128_1_0_0_1 (val_main_v21 (F := Ideal)) (val_main_v22 (F := Ideal) d)
    (Host.gather (α := Ideal .f32) Cert.ReferenceIdeal.gather_S100000x128_S1600000x1_S1600000x128_1_0_n_n_0_1_1128 x (val_main_v19 (F := Ideal) s))

/-- The one vocabulary difference: the kernel program's scale column is the reference's. -/
theorem colOf_eq (s : Vn) : colOf s = broadcastInDim Cert.ReferenceIdeal.S100000x1 ![0] Cert.ReferenceIdeal.Gen.bcast_S100000_S100000x1_0 (Host.rsqrt (F := Ideal) (φ := .f32) s) :=
  reshape_column (α := Ideal .f32) (Host.rsqrt (F := Ideal) (φ := .f32) s) Gen.shapeCasts_S100000_S100000x1 Cert.ReferenceIdeal.Gen.bcast_S100000_S100000x1_0

section Stretches

variable (Z : Valuation τ sig (Elt Ideal))

/-! ### The degrees (first stretch) -/
theorem s0_v3 : StableHlo.after hostOps0 Z (Proc.devRef .tc main_v3) = val_main_v3 (F := Ideal) (Z (Proc.devRef .tc main_arg1)) := by
  simp only [hostOps0]; after_results_simp
  unfold val_main_v3 val_main_v1 val_main_cst_0 val_main_v2 val_main_v0 val_main_cst
  rfl
theorem s0_v6 : StableHlo.after hostOps0 Z (Proc.devRef .tc main_v6) = val_main_v6 (F := Ideal) (Z (Proc.devRef .tc main_arg2)) := by
  simp only [hostOps0]; after_results_simp
  unfold val_main_v6 val_main_v4 val_main_cst_1 val_main_v5 val_main_v0 val_main_cst
  rfl
theorem s0_cst2 : StableHlo.after hostOps0 Z (Proc.devRef .tc main_cst_2) = val_main_cst_2 (F := Ideal) := by
  simp only [hostOps0]; after_results_simp
  rfl
theorem s0_arg0 : StableHlo.after hostOps0 Z (Proc.devRef .tc main_arg0) = Z (Proc.devRef .tc main_arg0) := by
  simp only [hostOps0]; after_results_simp
theorem s0_arg1 : StableHlo.after hostOps0 Z (Proc.devRef .tc main_arg1) = Z (Proc.devRef .tc main_arg1) := by
  simp only [hostOps0]; after_results_simp
theorem s0_arg2 : StableHlo.after hostOps0 Z (Proc.devRef .tc main_arg2) = Z (Proc.devRef .tc main_arg2) := by
  simp only [hostOps0]; after_results_simp
theorem s0_arg3 : StableHlo.after hostOps0 Z (Proc.devRef .tc main_arg3) = Z (Proc.devRef .tc main_arg3) := by
  simp only [hostOps0]; after_results_simp
theorem s0_arg4 : StableHlo.after hostOps0 Z (Proc.devRef .tc main_arg4) = Z (Proc.devRef .tc main_arg4) := by
  simp only [hostOps0]; after_results_simp
theorem s0_arg5 : StableHlo.after hostOps0 Z (Proc.devRef .tc main_arg5) = Z (Proc.devRef .tc main_arg5) := by
  simp only [hostOps0]; after_results_simp
theorem s0_arg6 : StableHlo.after hostOps0 Z (Proc.devRef .tc main_arg6) = Z (Proc.devRef .tc main_arg6) := by
  simp only [hostOps0]; after_results_simp
theorem s0_arg7 : StableHlo.after hostOps0 Z (Proc.devRef .tc main_arg7) = Z (Proc.devRef .tc main_arg7) := by
  simp only [hostOps0]; after_results_simp
theorem s0_arg8 : StableHlo.after hostOps0 Z (Proc.devRef .tc main_arg8) = Z (Proc.devRef .tc main_arg8) := by
  simp only [hostOps0]; after_results_simp

/-! ### The two clips (each an outlined function: three operations) and the constant between them -/
theorem s1_v7 : StableHlo.after hostOps0_1 Z (Proc.devRef .tc main_v7) = clipAt (Z (Proc.devRef .tc main_cst_2)) (Z (Proc.devRef .tc main_v3)) := by
  simp only [hostOps0_1]; after_results_simp
  rfl
theorem s1_v6 : StableHlo.after hostOps0_1 Z (Proc.devRef .tc main_v6) = Z (Proc.devRef .tc main_v6) := by
  simp only [hostOps0_1]; after_results_simp
theorem s1_arg0 : StableHlo.after hostOps0_1 Z (Proc.devRef .tc main_arg0) = Z (Proc.devRef .tc main_arg0) := by
  simp only [hostOps0_1]; after_results_simp
theorem s1_arg1 : StableHlo.after hostOps0_1 Z (Proc.devRef .tc main_arg1) = Z (Proc.devRef .tc main_arg1) := by
  simp only [hostOps0_1]; after_results_simp
theorem s1_arg2 : StableHlo.after hostOps0_1 Z (Proc.devRef .tc main_arg2) = Z (Proc.devRef .tc main_arg2) := by
  simp only [hostOps0_1]; after_results_simp
theorem s1_arg3 : StableHlo.after hostOps0_1 Z (Proc.devRef .tc main_arg3) = Z (Proc.devRef .tc main_arg3) := by
  simp only [hostOps0_1]; after_results_simp
theorem s1_arg4 : StableHlo.after hostOps0_1 Z (Proc.devRef .tc main_arg4) = Z (Proc.devRef .tc main_arg4) := by
  simp only [hostOps0_1]; after_results_simp
theorem s1_arg5 : StableHlo.after hostOps0_1 Z (Proc.devRef .tc main_arg5) = Z (Proc.devRef .tc main_arg5) := by
  simp only [hostOps0_1]; after_results_simp
theorem s1_arg6 : StableHlo.after hostOps0_1 Z (Proc.devRef .tc main_arg6) = Z (Proc.devRef .tc main_arg6) := by
  simp only [hostOps0_1]; after_results_simp
theorem s1_arg7 : StableHlo.after hostOps0_1 Z (Proc.devRef .tc main_arg7) = Z (Proc.devRef .tc main_arg7) := by
  simp only [hostOps0_1]; after_results_simp
theorem s1_arg8 : StableHlo.after hostOps0_1 Z (Proc.devRef .tc main_arg8) = Z (Proc.devRef .tc main_arg8) := by
  simp only [hostOps0_1]; after_results_simp
theorem s2_cst3 : StableHlo.after hostOps0_2 Z (Proc.devRef .tc main_cst_3) = val_main_cst_3 (F := Ideal) := by
  simp only [hostOps0_2]; after_results_simp
  rfl
theorem s2_v6 : StableHlo.after hostOps0_2 Z (Proc.devRef .tc main_v6) = Z (Proc.devRef .tc main_v6) := by
  simp only [hostOps0_2]; after_results_simp
theorem s2_v7 : StableHlo.after hostOps0_2 Z (Proc.devRef .tc main_v7) = Z (Proc.devRef .tc main_v7) := by
  simp only [hostOps0_2]; after_results_simp
theorem s2_arg0 : StableHlo.after hostOps0_2 Z (Proc.devRef .tc main_arg0) = Z (Proc.devRef .tc main_arg0) := by
  simp only [hostOps0_2]; after_results_simp
theorem s2_arg1 : StableHlo.after hostOps0_2 Z (Proc.devRef .tc main_arg1) = Z (Proc.devRef .tc main_arg1) := by
  simp only [hostOps0_2]; after_results_simp
theorem s2_arg2 : StableHlo.after hostOps0_2 Z (Proc.devRef .tc main_arg2) = Z (Proc.devRef .tc main_arg2) := by
  simp only [hostOps0_2]; after_results_simp
theorem s2_arg3 : StableHlo.after hostOps0_2 Z (Proc.devRef .tc main_arg3) = Z (Proc.devRef .tc main_arg3) := by
  simp only [hostOps0_2]; after_results_simp
theorem s2_arg4 : StableHlo.after hostOps0_2 Z (Proc.devRef .tc main_arg4) = Z (Proc.devRef .tc main_arg4) := by
  simp only [hostOps0_2]; after_results_simp
theorem s2_arg5 : StableHlo.after hostOps0_2 Z (Proc.devRef .tc main_arg5) = Z (Proc.devRef .tc main_arg5) := by
  simp only [hostOps0_2]; after_results_simp
theorem s2_arg6 : StableHlo.after hostOps0_2 Z (Proc.devRef .tc main_arg6) = Z (Proc.devRef .tc main_arg6) := by
  simp only [hostOps0_2]; after_results_simp
theorem s2_arg7 : StableHlo.after hostOps0_2 Z (Proc.devRef .tc main_arg7) = Z (Proc.devRef .tc main_arg7) := by
  simp only [hostOps0_2]; after_results_simp
theorem s2_arg8 : StableHlo.after hostOps0_2 Z (Proc.devRef .tc main_arg8) = Z (Proc.devRef .tc main_arg8) := by
  simp only [hostOps0_2]; after_results_simp
theorem s3_v8 : StableHlo.after hostOps0_3 Z (Proc.devRef .tc main_v8) = clipAt (Z (Proc.devRef .tc main_cst_3)) (Z (Proc.devRef .tc main_v6)) := by
  simp only [hostOps0_3]; after_results_simp
  rfl
theorem s3_v7 : StableHlo.after hostOps0_3 Z (Proc.devRef .tc main_v7) = Z (Proc.devRef .tc main_v7) := by
  simp only [hostOps0_3]; after_results_simp
theorem s3_arg0 : StableHlo.after hostOps0_3 Z (Proc.devRef .tc main_arg0) = Z (Proc.devRef .tc main_arg0) := by
  simp only [hostOps0_3]; after_results_simp
theorem s3_arg1 : StableHlo.after hostOps0_3 Z (Proc.devRef .tc main_arg1) = Z (Proc.devRef .tc main_arg1) := by
  simp only [hostOps0_3]; after_results_simp
theorem s3_arg2 : StableHlo.after hostOps0_3 Z (Proc.devRef .tc main_arg2) = Z (Proc.devRef .tc main_arg2) := by
  simp only [hostOps0_3]; after_results_simp
theorem s3_arg3 : StableHlo.after hostOps0_3 Z (Proc.devRef .tc main_arg3) = Z (Proc.devRef .tc main_arg3) := by
  simp only [hostOps0_3]; after_results_simp
theorem s3_arg4 : StableHlo.after hostOps0_3 Z (Proc.devRef .tc main_arg4) = Z (Proc.devRef .tc main_arg4) := by
  simp only [hostOps0_3]; after_results_simp
theorem s3_arg5 : StableHlo.after hostOps0_3 Z (Proc.devRef .tc main_arg5) = Z (Proc.devRef .tc main_arg5) := by
  simp only [hostOps0_3]; after_results_simp
theorem s3_arg6 : StableHlo.after hostOps0_3 Z (Proc.devRef .tc main_arg6) = Z (Proc.devRef .tc main_arg6) := by
  simp only [hostOps0_3]; after_results_simp
theorem s3_arg7 : StableHlo.after hostOps0_3 Z (Proc.devRef .tc main_arg7) = Z (Proc.devRef .tc main_arg7) := by
  simp only [hostOps0_3]; after_results_simp
theorem s3_arg8 : StableHlo.after hostOps0_3 Z (Proc.devRef .tc main_arg8) = Z (Proc.devRef .tc main_arg8) := by
  simp only [hostOps0_3]; after_results_simp

/-! ### The scale columns, the first aggregation and the bias row (the stretch before region 0) -/
theorem s4_v10 : StableHlo.after hostOps0_4 Z (Proc.devRef .tc main_v10) = colOf (Z (Proc.devRef .tc main_v7)) := by
  simp only [hostOps0_4]; after_results_simp
  rfl
theorem s4_v12 : StableHlo.after hostOps0_4 Z (Proc.devRef .tc main_v12) = colOf (Z (Proc.devRef .tc main_v8)) := by
  simp only [hostOps0_4]; after_results_simp
  rfl
theorem s4_v24 : StableHlo.after hostOps0_4 Z (Proc.devRef .tc main_v24)
    = aggOf (scaled (Z (Proc.devRef .tc main_arg0)) (colOf (Z (Proc.devRef .tc main_v7)))) (Z (Proc.devRef .tc main_arg1)) (Z (Proc.devRef .tc main_arg2)) := by
  simp only [hostOps0_4]; after_results_simp
  unfold aggOf scaled colOf val_main_v21 val_main_cst_5 val_main_v22 val_main_v19 val_main_v18 val_main_v17 val_main_v16 val_main_c_4 val_main_v15 val_main_v14 val_main_c
  rfl
theorem s4_v25 : StableHlo.after hostOps0_4 Z (Proc.devRef .tc main_v25)
    = (shapeCast S1x256 (Z (Proc.devRef .tc main_arg4) : (⟨S256, .f32⟩ : BufTy).Contents (Elt Ideal)) Gen.shapeCasts_S256_S1x256 : (⟨S1x256, .f32⟩ : BufTy).Contents (Elt Ideal)) := by
  simp only [hostOps0_4]; after_results_simp
  rfl
theorem s4_arg1 : StableHlo.after hostOps0_4 Z (Proc.devRef .tc main_arg1) = Z (Proc.devRef .tc main_arg1) := by
  simp only [hostOps0_4]; after_results_simp
theorem s4_arg2 : StableHlo.after hostOps0_4 Z (Proc.devRef .tc main_arg2) = Z (Proc.devRef .tc main_arg2) := by
  simp only [hostOps0_4]; after_results_simp
theorem s4_arg3 : StableHlo.after hostOps0_4 Z (Proc.devRef .tc main_arg3) = Z (Proc.devRef .tc main_arg3) := by
  simp only [hostOps0_4]; after_results_simp
theorem s4_arg5 : StableHlo.after hostOps0_4 Z (Proc.devRef .tc main_arg5) = Z (Proc.devRef .tc main_arg5) := by
  simp only [hostOps0_4]; after_results_simp
theorem s4_arg6 : StableHlo.after hostOps0_4 Z (Proc.devRef .tc main_arg6) = Z (Proc.devRef .tc main_arg6) := by
  simp only [hostOps0_4]; after_results_simp
theorem s4_arg7 : StableHlo.after hostOps0_4 Z (Proc.devRef .tc main_arg7) = Z (Proc.devRef .tc main_arg7) := by
  simp only [hostOps0_4]; after_results_simp
theorem s4_arg8 : StableHlo.after hostOps0_4 Z (Proc.devRef .tc main_arg8) = Z (Proc.devRef .tc main_arg8) := by
  simp only [hostOps0_4]; after_results_simp

/-! ### The second aggregation, the transposed head weights and the bias row (the stretch before region 2) -/
theorem s5_v37 : StableHlo.after hostOps2 Z (Proc.devRef .tc main_v37)
    = aggOf (Z (Proc.devRef .tc main_v27)) (Z (Proc.devRef .tc main_arg1)) (Z (Proc.devRef .tc main_arg2)) := by
  simp only [hostOps2]; after_results_simp
  unfold aggOf val_main_v21 val_main_cst_5 val_main_v22 val_main_v19 val_main_v18 val_main_v17 val_main_v16 val_main_c_4 val_main_v15 val_main_v14 val_main_c
  rfl
theorem s5_v40 : StableHlo.after hostOps2 Z (Proc.devRef .tc main_v40)
    = (shapeCast S1x128 (Z (Proc.devRef .tc main_arg6) : (⟨S128, .f32⟩ : BufTy).Contents (Elt Ideal)) Gen.shapeCasts_S128_S1x128 : (⟨S1x128, .f32⟩ : BufTy).Contents (Elt Ideal)) := by
  simp only [hostOps2]; after_results_simp
  rfl
theorem s5_v38 : StableHlo.after hostOps2 Z (Proc.devRef .tc main_v38) = val_main_v53 (F := Ideal) (Z (Proc.devRef .tc main_arg7)) := by
  simp only [hostOps2]; after_results_simp
  rfl
theorem s5_v39 : StableHlo.after hostOps2 Z (Proc.devRef .tc main_v39) = val_main_v55 (F := Ideal) (Z (Proc.devRef .tc main_arg8)) := by
  simp only [hostOps2]; after_results_simp
  rfl
theorem s5_v12 : StableHlo.after hostOps2 Z (Proc.devRef .tc main_v12) = Z (Proc.devRef .tc main_v12) := by
  simp only [hostOps2]; after_results_simp

end Stretches

/-! ## The chain: each boundary's contents at the buffers read later, by rewriting with the stretch facts -/

section Chain

variable (c : Dev nD)

/-! ### After the degrees -/
theorem W1_v3 : W1 m ρ c (Proc.devRef .tc main_v3) = val_main_v3 (F := Ideal) (x1 m c) := s0_v3 (W0 m ρ c)
theorem W1_v6 : W1 m ρ c (Proc.devRef .tc main_v6) = val_main_v6 (F := Ideal) (x2 m c) := s0_v6 (W0 m ρ c)
theorem W1_cst2 : W1 m ρ c (Proc.devRef .tc main_cst_2) = val_main_cst_2 (F := Ideal) := s0_cst2 (W0 m ρ c)
theorem W1_arg0 : W1 m ρ c (Proc.devRef .tc main_arg0) = x0 m c := s0_arg0 (W0 m ρ c)
theorem W1_arg1 : W1 m ρ c (Proc.devRef .tc main_arg1) = x1 m c := s0_arg1 (W0 m ρ c)
theorem W1_arg2 : W1 m ρ c (Proc.devRef .tc main_arg2) = x2 m c := s0_arg2 (W0 m ρ c)
theorem W1_arg3 : W1 m ρ c (Proc.devRef .tc main_arg3) = x3 m c := s0_arg3 (W0 m ρ c)
theorem W1_arg4 : W1 m ρ c (Proc.devRef .tc main_arg4) = x4 m c := s0_arg4 (W0 m ρ c)
theorem W1_arg5 : W1 m ρ c (Proc.devRef .tc main_arg5) = x5 m c := s0_arg5 (W0 m ρ c)
theorem W1_arg6 : W1 m ρ c (Proc.devRef .tc main_arg6) = x6 m c := s0_arg6 (W0 m ρ c)
theorem W1_arg7 : W1 m ρ c (Proc.devRef .tc main_arg7) = x7 m c := s0_arg7 (W0 m ρ c)
theorem W1_arg8 : W1 m ρ c (Proc.devRef .tc main_arg8) = x8 m c := s0_arg8 (W0 m ρ c)

/-! ### After the first clip -/
theorem W2_v7 : W2 m ρ c (Proc.devRef .tc main_v7) = val_main_v7 (F := Ideal) (x1 m c) := by
  refine (s1_v7 (W1 m ρ c)).trans ?_
  rw [W1_cst2, W1_v3]
  unfold clipAt val_main_v7 val_main_call0_v1 val_main_call0_v0
  rfl
theorem W2_v6 : W2 m ρ c (Proc.devRef .tc main_v6) = val_main_v6 (F := Ideal) (x2 m c) := (s1_v6 (W1 m ρ c)).trans (W1_v6 m ρ c)
theorem W2_arg0 : W2 m ρ c (Proc.devRef .tc main_arg0) = x0 m c := (s1_arg0 (W1 m ρ c)).trans (W1_arg0 m ρ c)
theorem W2_arg1 : W2 m ρ c (Proc.devRef .tc main_arg1) = x1 m c := (s1_arg1 (W1 m ρ c)).trans (W1_arg1 m ρ c)
theorem W2_arg2 : W2 m ρ c (Proc.devRef .tc main_arg2) = x2 m c := (s1_arg2 (W1 m ρ c)).trans (W1_arg2 m ρ c)
theorem W2_arg3 : W2 m ρ c (Proc.devRef .tc main_arg3) = x3 m c := (s1_arg3 (W1 m ρ c)).trans (W1_arg3 m ρ c)
theorem W2_arg4 : W2 m ρ c (Proc.devRef .tc main_arg4) = x4 m c := (s1_arg4 (W1 m ρ c)).trans (W1_arg4 m ρ c)
theorem W2_arg5 : W2 m ρ c (Proc.devRef .tc main_arg5) = x5 m c := (s1_arg5 (W1 m ρ c)).trans (W1_arg5 m ρ c)
theorem W2_arg6 : W2 m ρ c (Proc.devRef .tc main_arg6) = x6 m c := (s1_arg6 (W1 m ρ c)).trans (W1_arg6 m ρ c)
theorem W2_arg7 : W2 m ρ c (Proc.devRef .tc main_arg7) = x7 m c := (s1_arg7 (W1 m ρ c)).trans (W1_arg7 m ρ c)
theorem W2_arg8 : W2 m ρ c (Proc.devRef .tc main_arg8) = x8 m c := (s1_arg8 (W1 m ρ c)).trans (W1_arg8 m ρ c)

/-! ### After the constant between the clips -/
theorem W3_cst3 : W3 m ρ c (Proc.devRef .tc main_cst_3) = val_main_cst_3 (F := Ideal) := s2_cst3 (W2 m ρ c)
theorem W3_v6 : W3 m ρ c (Proc.devRef .tc main_v6) = val_main_v6 (F := Ideal) (x2 m c) := (s2_v6 (W2 m ρ c)).trans (W2_v6 m ρ c)
theorem W3_v7 : W3 m ρ c (Proc.devRef .tc main_v7) = val_main_v7 (F := Ideal) (x1 m c) := (s2_v7 (W2 m ρ c)).trans (W2_v7 m ρ c)
theorem W3_arg0 : W3 m ρ c (Proc.devRef .tc main_arg0) = x0 m c := (s2_arg0 (W2 m ρ c)).trans (W2_arg0 m ρ c)
theorem W3_arg1 : W3 m ρ c (Proc.devRef .tc main_arg1) = x1 m c := (s2_arg1 (W2 m ρ c)).trans (W2_arg1 m ρ c)
theorem W3_arg2 : W3 m ρ c (Proc.devRef .tc main_arg2) = x2 m c := (s2_arg2 (W2 m ρ c)).trans (W2_arg2 m ρ c)
theorem W3_arg3 : W3 m ρ c (Proc.devRef .tc main_arg3) = x3 m c := (s2_arg3 (W2 m ρ c)).trans (W2_arg3 m ρ c)
theorem W3_arg4 : W3 m ρ c (Proc.devRef .tc main_arg4) = x4 m c := (s2_arg4 (W2 m ρ c)).trans (W2_arg4 m ρ c)
theorem W3_arg5 : W3 m ρ c (Proc.devRef .tc main_arg5) = x5 m c := (s2_arg5 (W2 m ρ c)).trans (W2_arg5 m ρ c)
theorem W3_arg6 : W3 m ρ c (Proc.devRef .tc main_arg6) = x6 m c := (s2_arg6 (W2 m ρ c)).trans (W2_arg6 m ρ c)
theorem W3_arg7 : W3 m ρ c (Proc.devRef .tc main_arg7) = x7 m c := (s2_arg7 (W2 m ρ c)).trans (W2_arg7 m ρ c)
theorem W3_arg8 : W3 m ρ c (Proc.devRef .tc main_arg8) = x8 m c := (s2_arg8 (W2 m ρ c)).trans (W2_arg8 m ρ c)

/-! ### After the second clip -/
theorem W4_v8 : W4 m ρ c (Proc.devRef .tc main_v8) = val_main_v8 (F := Ideal) (x2 m c) := by
  refine (s3_v8 (W3 m ρ c)).trans ?_
  rw [W3_cst3, W3_v6]
  unfold clipAt val_main_v8 val_main_call1_v1 val_main_call1_v0
  rfl
theorem W4_v7 : W4 m ρ c (Proc.devRef .tc main_v7) = val_main_v7 (F := Ideal) (x1 m c) := (s3_v7 (W3 m ρ c)).trans (W3_v7 m ρ c)
theorem W4_arg0 : W4 m ρ c (Proc.devRef .tc main_arg0) = x0 m c := (s3_arg0 (W3 m ρ c)).trans (W3_arg0 m ρ c)
theorem W4_arg1 : W4 m ρ c (Proc.devRef .tc main_arg1) = x1 m c := (s3_arg1 (W3 m ρ c)).trans (W3_arg1 m ρ c)
theorem W4_arg2 : W4 m ρ c (Proc.devRef .tc main_arg2) = x2 m c := (s3_arg2 (W3 m ρ c)).trans (W3_arg2 m ρ c)
theorem W4_arg3 : W4 m ρ c (Proc.devRef .tc main_arg3) = x3 m c := (s3_arg3 (W3 m ρ c)).trans (W3_arg3 m ρ c)
theorem W4_arg4 : W4 m ρ c (Proc.devRef .tc main_arg4) = x4 m c := (s3_arg4 (W3 m ρ c)).trans (W3_arg4 m ρ c)
theorem W4_arg5 : W4 m ρ c (Proc.devRef .tc main_arg5) = x5 m c := (s3_arg5 (W3 m ρ c)).trans (W3_arg5 m ρ c)
theorem W4_arg6 : W4 m ρ c (Proc.devRef .tc main_arg6) = x6 m c := (s3_arg6 (W3 m ρ c)).trans (W3_arg6 m ρ c)
theorem W4_arg7 : W4 m ρ c (Proc.devRef .tc main_arg7) = x7 m c := (s3_arg7 (W3 m ρ c)).trans (W3_arg7 m ρ c)
theorem W4_arg8 : W4 m ρ c (Proc.devRef .tc main_arg8) = x8 m c := (s3_arg8 (W3 m ρ c)).trans (W3_arg8 m ρ c)

/-! ### At region 0's entry -/
theorem W5_v10 : W5 m ρ c (Proc.devRef .tc main_v10) = val_main_v33 (F := Ideal) (x1 m c) := by
  refine (s4_v10 (W4 m ρ c)).trans ?_
  rw [W4_v7, colOf_eq]
  unfold val_main_v33 val_main_v9
  rfl
theorem W5_v12 : W5 m ρ c (Proc.devRef .tc main_v12) = val_main_v24 (F := Ideal) (x2 m c) := by
  refine (s4_v12 (W4 m ρ c)).trans ?_
  rw [W4_v8, colOf_eq]
  unfold val_main_v24 val_main_v10
  rfl
theorem W5_v24 : W5 m ρ c (Proc.devRef .tc main_v24) = val_main_v23 (F := Ideal) (x0 m c) (x1 m c) (x2 m c) := by
  refine (s4_v24 (W4 m ρ c)).trans ?_
  rw [W4_arg0, W4_v7, W4_arg1, W4_arg2, colOf_eq]
  unfold aggOf scaled val_main_v23 val_main_v20 val_main_v13 val_main_v12 val_main_v11 val_main_v9
  rfl
theorem W5_v25 : W5 m ρ c (Proc.devRef .tc main_v25) = val_main_v28 (F := Ideal) (x4 m c) := by
  refine (s4_v25 (W4 m ρ c)).trans ?_
  rw [W4_arg4]
  exact reshape_row (α := Ideal .f32) (x4 m c) Gen.shapeCasts_S256_S1x256 Cert.ReferenceIdeal.Gen.bcast_S256_S1x256_1
theorem W5_arg1 : W5 m ρ c (Proc.devRef .tc main_arg1) = x1 m c := (s4_arg1 (W4 m ρ c)).trans (W4_arg1 m ρ c)
theorem W5_arg2 : W5 m ρ c (Proc.devRef .tc main_arg2) = x2 m c := (s4_arg2 (W4 m ρ c)).trans (W4_arg2 m ρ c)
theorem W5_arg3 : W5 m ρ c (Proc.devRef .tc main_arg3) = x3 m c := (s4_arg3 (W4 m ρ c)).trans (W4_arg3 m ρ c)
theorem W5_arg5 : W5 m ρ c (Proc.devRef .tc main_arg5) = x5 m c := (s4_arg5 (W4 m ρ c)).trans (W4_arg5 m ρ c)
theorem W5_arg6 : W5 m ρ c (Proc.devRef .tc main_arg6) = x6 m c := (s4_arg6 (W4 m ρ c)).trans (W4_arg6 m ρ c)
theorem W5_arg7 : W5 m ρ c (Proc.devRef .tc main_arg7) = x7 m c := (s4_arg7 (W4 m ρ c)).trans (W4_arg7 m ρ c)
theorem W5_arg8 : W5 m ρ c (Proc.devRef .tc main_arg8) = x8 m c := (s4_arg8 (W4 m ρ c)).trans (W4_arg8 m ρ c)

/-! ### After region 0: its output is the first layer's dense stage -/
theorem W6_v26 : W6 m ρ c (Proc.devRef .tc main_v26) = val_main_v31 (F := Ideal) (x0 m c) (x1 m c) (x2 m c) (x3 m c) (x4 m c) := by
  refine (W6_arr m ρ c 4).trans ?_
  rw [Region0.array (V5 m ρ) c, v31_eq]
  show scaleDenseRelu (W5 m ρ c (Proc.devRef .tc main_v24)) (W5 m ρ c (Proc.devRef .tc main_v12)) (W5 m ρ c (Proc.devRef .tc main_arg3)) (W5 m ρ c (Proc.devRef .tc main_v25)) = _
  rw [W5_v24, W5_v12, W5_arg3, W5_v25]
theorem W6_v10 : W6 m ρ c (Proc.devRef .tc main_v10) = val_main_v33 (F := Ideal) (x1 m c) :=
  (W6_of_ne m ρ c main_v10 (by decide)).trans (W5_v10 m ρ c)
theorem W6_v12 : W6 m ρ c (Proc.devRef .tc main_v12) = val_main_v24 (F := Ideal) (x2 m c) :=
  (W6_arr m ρ c 1).trans (((dat0 (V5 m ρ) c).arrAt_in 1 rfl _).trans ((A_eq0 (V5 m ρ) c 1).trans (W5_v12 m ρ c)))
theorem W6_arg1 : W6 m ρ c (Proc.devRef .tc main_arg1) = x1 m c := (W6_of_ne m ρ c main_arg1 (by decide)).trans (W5_arg1 m ρ c)
theorem W6_arg2 : W6 m ρ c (Proc.devRef .tc main_arg2) = x2 m c := (W6_of_ne m ρ c main_arg2 (by decide)).trans (W5_arg2 m ρ c)
theorem W6_arg5 : W6 m ρ c (Proc.devRef .tc main_arg5) = x5 m c := (W6_of_ne m ρ c main_arg5 (by decide)).trans (W5_arg5 m ρ c)
theorem W6_arg6 : W6 m ρ c (Proc.devRef .tc main_arg6) = x6 m c := (W6_of_ne m ρ c main_arg6 (by decide)).trans (W5_arg6 m ρ c)
theorem W6_arg7 : W6 m ρ c (Proc.devRef .tc main_arg7) = x7 m c := (W6_of_ne m ρ c main_arg7 (by decide)).trans (W5_arg7 m ρ c)
theorem W6_arg8 : W6 m ρ c (Proc.devRef .tc main_arg8) = x8 m c := (W6_of_ne m ρ c main_arg8 (by decide)).trans (W5_arg8 m ρ c)

/-! ### After region 1: its output is the second layer's product, scaled -/
theorem W7_v27 : W7 m ρ c (Proc.devRef .tc main_v27) = val_main_v35 (F := Ideal) (x0 m c) (x1 m c) (x2 m c) (x3 m c) (x4 m c) (x5 m c) := by
  refine (W7_arr m ρ c 3).trans ?_
  rw [Region1.array (V6 m ρ) c, v35_eq]
  show denseScale (W6 m ρ c (Proc.devRef .tc main_v26)) (W6 m ρ c (Proc.devRef .tc main_v10)) (W6 m ρ c (Proc.devRef .tc main_arg5)) = _
  rw [W6_v26, W6_v10, W6_arg5]
theorem W7_v12 : W7 m ρ c (Proc.devRef .tc main_v12) = val_main_v24 (F := Ideal) (x2 m c) :=
  (W7_of_ne m ρ c main_v12 (by decide)).trans (W6_v12 m ρ c)
theorem W7_arg1 : W7 m ρ c (Proc.devRef .tc main_arg1) = x1 m c := (W7_of_ne m ρ c main_arg1 (by decide)).trans (W6_arg1 m ρ c)
theorem W7_arg2 : W7 m ρ c (Proc.devRef .tc main_arg2) = x2 m c := (W7_of_ne m ρ c main_arg2 (by decide)).trans (W6_arg2 m ρ c)
theorem W7_arg6 : W7 m ρ c (Proc.devRef .tc main_arg6) = x6 m c := (W7_of_ne m ρ c main_arg6 (by decide)).trans (W6_arg6 m ρ c)
theorem W7_arg7 : W7 m ρ c (Proc.devRef .tc main_arg7) = x7 m c := (W7_of_ne m ρ c main_arg7 (by decide)).trans (W6_arg7 m ρ c)
theorem W7_arg8 : W7 m ρ c (Proc.devRef .tc main_arg8) = x8 m c := (W7_of_ne m ρ c main_arg8 (by decide)).trans (W6_arg8 m ρ c)

/-! ### At region 2's entry -/
theorem W8_v37 : W8 m ρ c (Proc.devRef .tc main_v37) = val_main_v45 (F := Ideal) (x0 m c) (x1 m c) (x2 m c) (x3 m c) (x4 m c) (x5 m c) := by
  refine (s5_v37 (W7 m ρ c)).trans ?_
  rw [W7_v27, W7_arg1, W7_arg2]
  unfold aggOf val_main_v45 val_main_v43 val_main_cst_8 val_main_v44 val_main_v42 val_main_v41 val_main_v40 val_main_v39 val_main_v38 val_main_c_7 val_main_v37 val_main_v36 val_main_c_6 val_main_v21 val_main_cst_5 val_main_v22 val_main_v19 val_main_v18 val_main_v17 val_main_v16 val_main_c_4 val_main_v15 val_main_v14 val_main_c
  rfl
theorem W8_v12 : W8 m ρ c (Proc.devRef .tc main_v12) = val_main_v46 (F := Ideal) (x2 m c) := by
  refine ((s5_v12 (W7 m ρ c)).trans (W7_v12 m ρ c)).trans ?_
  unfold val_main_v24 val_main_v46
  rfl
theorem W8_v40 : W8 m ρ c (Proc.devRef .tc main_v40) = val_main_v49 (F := Ideal) (x6 m c) := by
  refine (s5_v40 (W7 m ρ c)).trans ?_
  rw [W7_arg6]
  exact reshape_row (α := Ideal .f32) (x6 m c) Gen.shapeCasts_S128_S1x128 Cert.ReferenceIdeal.Gen.bcast_S128_S1x128_1
theorem W8_v38 : W8 m ρ c (Proc.devRef .tc main_v38) = val_main_v53 (F := Ideal) (x7 m c) := by
  refine (s5_v38 (W7 m ρ c)).trans ?_
  rw [W7_arg7]
theorem W8_v39 : W8 m ρ c (Proc.devRef .tc main_v39) = val_main_v55 (F := Ideal) (x8 m c) := by
  refine (s5_v39 (W7 m ρ c)).trans ?_
  rw [W7_arg8]

/-! ### After region 2: the three results -/

/-- The rectified second-layer features are the reference's first result. -/
theorem out0 : W9 m ρ c (Proc.devRef .tc main_v41_0) = val_main_v52 (F := Ideal) (x0 m c) (x1 m c) (x2 m c) (x3 m c) (x4 m c) (x5 m c) (x6 m c) := by
  refine (W9_arr m ρ c 5).trans ?_
  rw [Region2.array5 (V8 m ρ) c, v52_eq]
  show scaleBiasRelu (W8 m ρ c (Proc.devRef .tc main_v37)) (W8 m ρ c (Proc.devRef .tc main_v12)) (W8 m ρ c (Proc.devRef .tc main_v40)) = _
  rw [W8_v37, W8_v12, W8_v40]

/-- Their first linear head is the reference's second result. -/
theorem out1 : W9 m ρ c (Proc.devRef .tc main_v41_1) = val_main_v54 (F := Ideal) (x0 m c) (x1 m c) (x2 m c) (x3 m c) (x4 m c) (x5 m c) (x6 m c) (x7 m c) := by
  refine (W9_arr m ρ c 6).trans ?_
  rw [Region2.array6 (V8 m ρ) c, v54_eq, v52_eq]
  show linearOf (scaleBiasRelu (W8 m ρ c (Proc.devRef .tc main_v37)) (W8 m ρ c (Proc.devRef .tc main_v12)) (W8 m ρ c (Proc.devRef .tc main_v40))) (W8 m ρ c (Proc.devRef .tc main_v38)) = _
  rw [W8_v37, W8_v12, W8_v40, W8_v38]

/-- Their second linear head is the reference's third result. -/
theorem out2 : W9 m ρ c (Proc.devRef .tc main_v41_2) = val_main_v56 (F := Ideal) (x0 m c) (x1 m c) (x2 m c) (x3 m c) (x4 m c) (x5 m c) (x6 m c) (x8 m c) := by
  refine (W9_arr m ρ c 7).trans ?_
  rw [Region2.array7 (V8 m ρ) c, v56_eq, v52_eq]
  show linearOf (scaleBiasRelu (W8 m ρ c (Proc.devRef .tc main_v37)) (W8 m ρ c (Proc.devRef .tc main_v12)) (W8 m ρ c (Proc.devRef .tc main_v40))) (W8 m ρ c (Proc.devRef .tc main_v39)) = _
  rw [W8_v37, W8_v12, W8_v40, W8_v39]

end Chain

end Cert.KernelIdeal.Fold

end
-- ==== Proof.lean ====
/-
  A two-layer graph convolution with two linear heads, its dense stages in three Pallas kernels, against the jnp
  reference: the two programs compute the same three arrays over the extended reals.

  Both programs take node features, an edge list (source and destination indices), and weights. Both compute the
  out- and in-degrees by scatter-adding ones, clip them below at one, and take inverse square roots: the scales. A
  layer scales the features by the out-scale, sums them into each node over its incoming edges (a gather along the
  sources, a scatter-add along the destinations) and scales by the in-scale; the first layer multiplies by its weights
  after the aggregation, the second before. The kernel program runs the aggregation as the reference does and the
  dense parts in kernels, 2000 rows of nodes at a grid point, 50 points:
    region 0:  relu ((agg · in-scale) W1 + b1)          region 1:  (h1 W2) · out-scale
    region 2:  h2 = relu (agg · in-scale + b2),  h2 fc1ᵀ,  h2 fc2ᵀ
  Each of these is a row-wise function of its operands, so the array a region leaves is the function of the whole
  arrays it reads (Region0, Region1, Region2), and the reference's stages are the same functions (RefStages): on the
  extended reals a matrix product is the same finite sum whether it is taken a block of rows at a time into a zero
  accumulator or whole, and the narrowing of the product's operands is the identity. No law beyond that is used, so the
  precondition (finite inputs) is never opened. The aggregation stages, the same operations in both programs, are
  carried whole (KFold); the kernel program's run with its three results named is KRun.
-/
import proofs.«116525_j23605140259107_1_alg».proof.Defs
import proofs.«116525_j23605140259107_1_alg».proof.Proof.Gen.Kernel
import proofs.«116525_j23605140259107_1_alg».proof.Proof.Gen.Kernel.Frame
import proofs.«116525_j23605140259107_1_alg».proof.Proof.Gen.KernelIdeal
import proofs.«116525_j23605140259107_1_alg».proof.Proof.Gen.KernelIdeal.Frame
import proofs.«116525_j23605140259107_1_alg».proof.Proof.Gen.ReferenceIdeal
import proofs.«116525_j23605140259107_1_alg».proof.Proof.Gen.ReferenceIdeal.Run
import proofs.«116525_j23605140259107_1_alg».proof.Proof.Gen.ReferenceIdeal.Read
import proofs.«116525_j23605140259107_1_alg».proof.Proof.Gen.Pre_finite_inputs
import proofs.«116525_j23605140259107_1_alg».proof.Proof.KRun
import proofs.«116525_j23605140259107_1_alg».proof.Proof.KFold
import Idealize.ShloMosaic.Adequacy
import Idealize.ShloMosaic.Init

noncomputable section

namespace Cert.Proof

open Idealize.ShloMosaic Idealize.ShloMosaic.TcCoe Idealize.SL.Sem

/-- From memories that agree on the arguments both programs run, and each of the kernel program's three results is the
    reference's: the kernel program's are the last boundary's contents at the result buffers (the named run), those are
    the reference's stage functions of the arguments (the fold through the regions), and the reference's results are the
    same stage functions of its own arguments (its run, read stage by stage). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W9 m ρ c (Proc.devRef .tc Cert.KernelIdeal.main_v41_0),
    fun c => Cert.KernelIdeal.Gen.W9 m ρ c (Proc.devRef .tc Cert.KernelIdeal.main_v41_1),
    fun c => Cert.KernelIdeal.Gen.W9 m ρ c (Proc.devRef .tc Cert.KernelIdeal.main_v41_2),
    Cert.KernelIdeal.Gen.run_named m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8⟩ := hagree c
  refine ⟨h0.trans ?_, h1.trans ?_, h2.trans ?_, hargs⟩
  · rw [Cert.ReferenceIdeal.Read.val_main_v52_eq, a0, a1, a2, a3, a4, a5, a6]
    exact (Cert.KernelIdeal.Fold.out0 m ρ c).symm
  · rw [Cert.ReferenceIdeal.Read.val_main_v54_eq, a0, a1, a2, a3, a4, a5, a6, a7]
    exact (Cert.KernelIdeal.Fold.out1 m ρ c).symm
  · rw [Cert.ReferenceIdeal.Read.val_main_v56_eq, a0, a1, a2, a3, a4, a5, a6, a8]
    exact (Cert.KernelIdeal.Fold.out2 m ρ c).symm

/-- The claim: each program runs to the end with its arguments unchanged (the kernel programs by their three regions'
    frames over the host stretches, the reference by its run); the idealized kernel program is the printed one read on
    the extended reals, no operation rewritten; and the results agree. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.Value.run (F := Ideal) m ρ),
  trivial,
  algebraic⟩

end Cert.Proof

end
